-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S8192x1024 : Shape := ⟨2, ![8192, 1024]⟩
abbrev S8192 : Shape := ⟨1, ![8192]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S1024 .f32) (main_arg1 : FVec F S8192x1024 .f32) (main_arg2 : IVec S8192 1) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S1024 : Shape := ⟨1, ![1024]⟩
abbrev S8192x1024 : Shape := ⟨2, ![8192, 1024]⟩
abbrev S8192 : Shape := ⟨1, ![8192]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S8192x1 : Shape := ⟨2, ![8192, 1]⟩
abbrev S1024x1024 : Shape := ⟨2, ![1024, 1024]⟩
abbrev S1024x1 : Shape := ⟨2, ![1024, 1]⟩
abbrev S_ : Shape := ⟨0, ![]⟩
abbrev S1 : Shape := ⟨1, ![1]⟩

abbrev nBuf : Space → Nat
  | .hbm => 40
  | .vmem => 16
  | .smem => 0
  | _ => 0

abbrev bufTy : (tb : Table) → Fin (tcTables nBuf tb) → BufTy
  | .hbm, ⟨0, _⟩ => ⟨S1024, .f32⟩
  | .hbm, ⟨1, _⟩ => ⟨S8192x1024, .f32⟩
  | .hbm, ⟨2, _⟩ => ⟨S8192, .i1⟩
  | .hbm, ⟨3, _⟩ => ⟨S1x1024, .f32⟩
  | .hbm, ⟨4, _⟩ => ⟨S8192x1024, .bf16⟩
  | .hbm, ⟨5, _⟩ => ⟨S8192x1024, .bf16⟩
  | .hbm, ⟨6, _⟩ => ⟨S8192x1, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .i1⟩
  | .hbm, ⟨38, _⟩ => ⟨S_, .i1⟩
  | .hbm, ⟨39, _⟩ => ⟨S1024, .f32⟩
  | .local _ .vmem, ⟨0, _⟩ => ⟨S1x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_call0_v0 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_17 : BitVec 32 := 0#32
  let v38 : BitVec 1 := Scalar.cmpi .ne v37 c0_i32_17
  v38

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  reducesTo_S8192x1024_S1024_d0 : S8192x1024.ReducesTo [0] S1024
  reducesTo_S1024_S_d0 : S1024.ReducesTo [0] S_
  bcast_S_S1024 : S_.BroadcastsInDim S1024 (![] : Fin 0 → Fin S1024.rank)
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024 : Shape := ⟨1, ![1024]⟩
abbrev S8192x1024 : Shape := ⟨2, ![8192, 1024]⟩
abbrev S8192 : Shape := ⟨1, ![8192]⟩
abbrev S1x1024 : Shape := ⟨2, ![1, 1024]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1 : Shape := ⟨1, ![1]⟩

abbrev nBuf : Space → Nat
  | .hbm => 84
  | .vmem => 0
  | .smem => 0
  | _ => 0

abbrev bufTy : (tb : Table) → Fin (tcTables nBuf tb) → BufTy
  | .hbm, ⟨0, _⟩ => ⟨S1024, .f32⟩
  | .hbm, ⟨1, _⟩ => ⟨S8192x1024, .f32⟩
  | .hbm, ⟨2, _⟩ => ⟨S8192, .i1⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1024x8192, .f32⟩
  | .hbm, ⟨30, _⟩ => ⟨S8192x8192, .f32⟩
  | .hbm, ⟨31, _⟩ => ⟨S1024x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S8192, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S_, .f32⟩
  | .hbm, ⟨74, _⟩ => ⟨S1, .f32⟩
  | .hbm, ⟨75, _⟩ => ⟨S1, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S1024, .f32⟩
  | .hbm, ⟨80, _⟩ => ⟨S1024, .f32⟩
  | .hbm, ⟨81, _⟩ => ⟨S_, .i1⟩
  | .hbm, ⟨82, _⟩ => ⟨S_, .i1⟩
  | .hbm, ⟨83, _⟩ => ⟨S1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_cst_5 : Ref sig .tc := ⟨.hbm, 50, rfl⟩
abbrev main_call2_v0 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_call3_v0 : Ref sig .tc := ⟨.hbm, 71, rfl⟩
abbrev main_call3_cst : Ref sig .tc := ⟨.hbm, 72, rfl⟩
abbrev main_call3_v1 : Ref sig .tc := ⟨.hbm, 73, rfl⟩
abbrev main_call3_v2 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  reducesTo_S8192x1024_S1024_d0 : S8192x1024.ReducesTo [0] S1024
  reducesTo_S1024_S_d0 : S1024.ReducesTo [0] S_
  bcast_S1_S1024_0 : S1.BroadcastsInDim S1024 (![0] : Fin 1 → Fin S1024.rank)
  bcast_S_S1024 : S_.BroadcastsInDim S1024 (![] : Fin 0 → Fin S1024.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.K.Reg0.lean ====
/-
  Region 0 (the normalising kernel, grid of 16 row blocks of 512 rows): what each staging buffer holds after the body
  at a grid point, as a function of the blocks the point reads, and the body's obligation at every point.
  At point t the body reads the 1x1024 query row (window 0) and the 512x1024 block of documents (window 1), and stores
  the two normalised blocks: window 2 gets unit((q + d) / 2) row by row, window 3 gets unit(d) row by row.
-/
import proofs.«127008_j80152679678829_1_alg».proof.Proof.Gen.Kernel.Launch
import proofs.«127008_j80152679678829_1_alg».proof.Proof.Gen.Kernel.Skeleton
import proofs.«127008_j80152679678829_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: arrays as found; the inputs' buffers keep their blocks, output window 2
    ends at the normalised half-sum block, output window 3 at the normalised document block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 1 t) (iblk0 V c 0 t)
    | ⟨3, _⟩ => k0_pay2 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 1 t) (iblk0 V c 0 t) := by dsimp only [dat0]
theorem after0_3 (c : Dev nD) (t : Fin cfg0.N) : (dat0 V c).after 3 t = k0_pay2 (iblk0 V c 1 t) := by dsimp only [dat0]

/-! ## The input windows' buffers at a point -/

/-- The query row's buffer holds the one query block at every point: it is fetched at the first point only, and the
    window's block index never moves, so a point that does not fetch still finds the block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The document window's buffer holds the point's block of 512 rows: it is fetched at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body on whole buffers -/

/-- The rectangle of the whole 1x1024 row and of the whole 512x1024 block: zero offsets, the buffer's own sizes. -/
abbrev rq : Rect S1x1024 := Rect.unit (s := S1x1024) ![0, 0] S1x1024.size inb_S1x1024_S1x1024_0_0
abbrev rd : Rect S512x1024 := Rect.unit (s := S512x1024) ![0, 0] S512x1024.size inb_S512x1024_S512x1024_0_0

theorem zeros2 : (![0, 0] : Fin 2 → Nat) = fun _ => 0 := by
  funext a; fin_cases a <;> rfl

/-- One store through the rectangle of the whole block covers the buffer. -/
theorem cover_whole (p : Vec F S512x1024 .bf16) (y : S512x1024.Idx) :
    ∃ pc ∈ ([⟨rd, p⟩] : List (View.Piece (Elt F) S512x1024 .bf16)), y ∈ pc.1.set :=
  ⟨_, List.mem_singleton_self _, View.mem_set_unit_zero zeros2 inb_S512x1024_S512x1024_0_0 y⟩

set_option maxHeartbeats 1000000 in
/-- The body on whole buffers: the query row's buffer reads x0, the document block's reads x1, the two output
    buffers hold anything. It loads both inputs whole, and stores each normalised block through the rectangle of the
    whole buffer, so each output buffer ends at exactly its stored block; the inputs are left as they were. -/
theorem sound_kernel0 (c : Dev nD) (E : Set ℕ) (i : grid0.Coords)
    (arg1 : Memref sig .tc .vmem S1x1024 .f32) (harg1 : arg1.IsWhole)
    (arg2 : Memref sig .tc .vmem S512x1024 .f32) (harg2 : arg2.IsWhole)
    (arg3 : Memref sig .tc .vmem S512x1024 .bf16) (harg3 : arg3.IsWhole)
    (arg4 : Memref sig .tc .vmem S512x1024 .bf16) (harg4 : arg4.IsWhole)
    (x0 : Vec F S1x1024 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay1 x1 x0)
            ∗ owns (c : Thread nD τ) arg4 fullShare (k0_pay2 x1)) -∗ K ⟨⟩))
      ⊢ wp frame (wpE (defs₀ (F := F)) Variants.none c none) E
          (cc0__norm_kernel i arg1 harg1 arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _),
      View.canon_unit_zero (S := S512x1024) zeros2]
    simp only [View.readAt_eq_ld, View.ld_unit_zero (S := S512x1024) zeros2, View.ld_unit_zero (S := S1x1024) zeros2]
  iexists _; isplitr
  swap; · iexact H3
  ipureintro
  rw [View.read_writes_eq_canon _ _ _ (cover_whole _),
    View.canon_unit_zero (S := S512x1024) zeros2]
  simp only [View.readAt_eq_ld, View.ld_unit_zero (S := S512x1024) zeros2]

/-! ## The obligation at a grid point -/

/-- What the body is handed at point t: the invariant, what the core owes, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same invariant and debt, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the two input buffers hold the point's query row and document block, so the body on whole
    buffers applies at those contents; the invariant and the core's debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0 at every grid point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.Reg1.lean ====
/-
  Region 1 (the pairwise-score kernel, grid 8 x 8 over row blocks i and column blocks j of 1024): the scratch column
  carried across the points of one row block, the proof data, and the body's obligation at every point.
  At point t = 8 i + j the body reads block i of cn (window 0), block i of dn (window 1) and block j of dn (window 2);
  it resets the scratch column at j = 0, adds to it the row sums of cos_cd * (1 - cos_dd) with the diagonal entries
  replaced by zero, and at j = 7 copies the scratch into the output block (window 3, block i of the 8192 x 1 result).
  Windows 1 and 2 read the same array, so each holds half of its share.
-/
import proofs.«127008_j80152679678829_1_alg».proof.Proof.Gen.Kernel.Launch
import proofs.«127008_j80152679678829_1_alg».proof.Proof.Gen.Kernel.Skeleton
import proofs.«127008_j80152679678829_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the scratch column: the column `prev` plus the row sums of this point's block of
    off-diagonal contributions (the skeleton's payload at the point's blocks). -/
def stepAt (c : Dev nD) (t : Fin cfg1.N) (prev : Vec F S1024x1 .f32) : Vec F S1024x1 .f32 :=
  k1_pay2 (grid1.coords t) (iblk1 V c 0 t) (iblk1 V c 2 t) (iblk1 V c 1 t) (iblk1 V c 2 t) prev

/-- The scratch column after the points below `n`: reset to zero where a row block starts (n ≡ 0 mod 8), else the
    previous column; then the point's update. `accAt (n + 1)` is what point `n` leaves in the scratch. -/
def accAt (c : Dev nD) : ℕ → Vec F S1024x1 .f32
  | 0 => k1_pay1
  | n + 1 => if h : n < cfg1.N then stepAt V c ⟨n, h⟩ (if n % 8 = 0 then k1_pay1 else accAt c n) else accAt c n

/-- The scratch column, as a memref. -/
abbrev scM : Memref sig .tc .vmem S1024x1 .f32 := Memref.whole cc1_scratch0

/-- What the body never touches: the generator register at some state and the seven staging buffers of the first
    region, each whole at some contents. -/
def others (c : Dev nD) : sProp 𝕄 :=
  iprop((∃ r, prngReg c r)
    ∗ (∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region's invariant before point `t`: what the body never touches, and the scratch column, which holds
    `accAt t` unless a row block starts at `t` (then anything: the body resets it there before reading it). -/
def Φ1 (c : Dev nD) (t : Fin (cfg1.N + 1)) : sProp 𝕄 :=
  iprop(others (F := F) c
    ∗ (∃ X : Vec F S1024x1 .f32, ⌜t.val % 8 ≠ 0 → X = accAt V c t.val⌝ ∗ owns (c : Thread nD τ) scM fullShare X))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c (t.val + 1)
  Φ t := Φ1 V c t
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c (t.val + 1) := by dsimp only [dat1]
theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare.right := by dsimp only [dat1]
theorem q1_3 (c : Dev nD) : (dat1 V c).q 3 = fullShare := by dsimp only [dat1]

/-! ## The body's two conditions, in closed form over the grid -/

/-- The body resets the scratch column where the column block index is zero: -/
abbrev cond1 (i : grid1.Coords) : Prop :=
  (Scalar.cmpi .ne (Scalar.extui (Scalar.cmpi .eq (BitVec.ofNat 32 (i 1).val) 0#32)) 0#32) = 1#1
/-- at the points ≡ 0 (mod 8). -/
theorem hcond1 : ∀ t : Fin cfg1.N, cond1 (grid1.coords t) ↔ t.val % 8 = 0 :=
  (by decide +kernel : ∀ t : Fin grid1.N, cond1 (grid1.coords t) ↔ t.val % 8 = 0)
/-- It copies the scratch column into the output block where the column block index is seven: -/
abbrev cond2 (i : grid1.Coords) : Prop := k1_cond2 i = 1#1
/-- at the points ≡ 7 (mod 8). -/
theorem hcond2 : ∀ t : Fin cfg1.N, cond2 (grid1.coords t) ↔ t.val % 8 = 7 :=
  (by decide +kernel : ∀ t : Fin grid1.N, cond2 (grid1.coords t) ↔ t.val % 8 = 7)
/-- Where the copy is not made the output window is idle and its block is not written back; where it is made the
    window is live. -/
theorem idle3_of : ∀ t : Fin cfg1.N, ¬cond2 (grid1.coords t) → cfg1.idle 3 (grid1.coords t) = true := by decide +kernel
theorem noFlush3_of : ∀ t : Fin cfg1.N, ¬cond2 (grid1.coords t) → (cfg1.win 3).flush t = false := by decide +kernel
theorem live3_of : ∀ t : Fin cfg1.N, cond2 (grid1.coords t) → cfg1.idle 3 (grid1.coords t) = false := by decide +kernel

/-! ## The body on whole memrefs, in its three control cases -/

private theorem hz : (![0, 0] : Fin 2 → Nat) = fun _ => 0 := funext fun a => by fin_cases a <;> rfl

/-- A load of a whole buffer through the whole-shape rectangle reads its contents: a matrix block, -/
private theorem load_block (a : Memref sig .tc .vmem S1024x1024 .bf16) (h : a.IsWhole) (x : Vec F S1024x1024 .bf16) :
    View.readAt (Elt F) a.view (Rect.unit (s := S1024x1024) ![0, 0] S1024x1024.size inb_S1024x1024_S1024x1024_0_0).toLoadRect (h.unread x) = x := by
  rw [View.readAt_eq_ld, h.read_unread, View.ld_unit_zero (S := S1024x1024) hz]
/-- and a column. -/
private theorem load_col (a : Memref sig .tc .vmem S1024x1 .f32) (h : a.IsWhole) (x : Vec F S1024x1 .f32) :
    View.readAt (Elt F) a.view (Rect.unit (s := S1024x1) ![0, 0] S1024x1.size inb_S1024x1_S1024x1_0_0).toLoadRect (h.unread x) = x := by
  rw [View.readAt_eq_ld, h.read_unread, View.ld_unit_zero (S := S1024x1) hz]
/-- A store through the whole-shape rectangle, made last, covers the column. -/
private theorem cover_col (w : Vec F S1024x1 .f32) (L : List (View.Piece (Elt F) S1024x1 .f32)) (y : S1024x1.Idx) :
    ∃ p ∈ ((⟨Rect.unit (s := S1024x1) ![0, 0] S1024x1.size inb_S1024x1_S1024x1_0_0, w⟩ : View.Piece (Elt F) S1024x1 .f32) :: L), y ∈ p.1.set :=
  ⟨_, List.mem_cons.mpr (Or.inl rfl), View.mem_set_unit_zero (S := S1024x1) hz inb_S1024x1_S1024x1_0_0 y⟩

set_option maxHeartbeats 1000000 in
/-- Where a row block starts (the reset is made, the copy is not): whatever the scratch held, the body leaves in it the
    zero column plus the point's row sums; the three input blocks and the output buffer are as they were. -/
theorem kernel_first (c : Dev nD) (E : Set ℕ) (i : grid1.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1 .f32) (h6 : a6.IsWhole)
    (hc1 : cond1 i) (hc2 : ¬cond2 i) (x0 x1 x2 : Vec F S1024x1024 .bf16) (xo : Vec F S1024x1 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare xo ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare xo ∗ owns (c : Thread nD τ) a6 fullShare (k1_pay2 i x0 x2 x1 x2 k1_pay1)) -∗ K ⟨⟩))
      ⊢ wp frame (wpE (defs₀ (F := F)) Variants.none c none) E (cc1_kernel i a2 h2 a3 h3 a4 h4 a5 h5 a6 h6) K := by
  simp only [cc1_kernel_eq_skeleton]; unfold cc1_kernel_skel
  unfold owns
  iintro ⟨⟨%f0, %hf0, H0⟩, ⟨%f1, %hf1, H1⟩, ⟨%f2, %hf2, H2⟩, ⟨%f5, %hf5, H5⟩, ⟨%d, %f6, -, H6⟩, Hk⟩
  obtain rfl := h2.eq_unread hf0; obtain rfl := h3.eq_unread hf1; obtain rfl := h4.eq_unread hf2; obtain rfl := h5.eq_unread hf5
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H5]
  · iexists _; isplitr; · ipureintro; exact h5.read_unread _
    iexact H5
  iexists _; isplitr
  swap; · iexact H6
  ipureintro
  rw [View.read_writes_eq_canon _ _ _ (cover_col _ _), View.canon_cons_unit_zero (S := S1024x1) hz]
  sl_unfold_run_names
  rw [load_block a2 h2 x0, load_block a3 h3 x1, load_block a4 h4 x2, View.readCov_unit_zero (S := S1024x1) _ hz]

set_option maxHeartbeats 1000000 in
/-- Inside a row block (neither the reset nor the copy is made): the body adds the point's row sums to the column the
    scratch holds; the three input blocks and the output buffer are as they were. -/
theorem kernel_mid (c : Dev nD) (E : Set ℕ) (i : grid1.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1 .f32) (h6 : a6.IsWhole)
    (hc1 : ¬cond1 i) (hc2 : ¬cond2 i) (x0 x1 x2 : Vec F S1024x1024 .bf16) (xo xs : Vec F S1024x1 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare xo ∗ owns (c : Thread nD τ) a6 fullShare xs
        ∗ (iprop(owns (c : Thread nD τ) a2 fullShare x0 ∗ owns (c : Thread nD τ) a3 fullShare x1 ∗ owns (c : Thread nD τ) a4 fullShare x2
            ∗ owns (c : Thread nD τ) a5 fullShare xo ∗ owns (c : Thread nD τ) a6 fullShare (k1_pay2 i x0 x2 x1 x2 xs)) -∗ K ⟨⟩))
      ⊢ wp frame (wpE (defs₀ (F := F)) Variants.none c none) E (cc1_kernel i a2 h2 a3 h3 a4 h4 a5 h5 a6 h6) K := by
  simp only [cc1_kernel_eq_skeleton]; unfold cc1_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := h2.eq_unread hf0; obtain rfl := h3.eq_unread hf1; obtain rfl := h4.eq_unread hf2; obtain rfl := h5.eq_unread hf5
  obtain rfl := h6.eq_unread hf6
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H5]
  · iexists _; isplitr; · ipureintro; exact h5.read_unread _
    iexact H5
  iexists _; isplitr
  swap; · iexact H6
  ipureintro
  sl_unfold_run_names
  rw [View.read_writes_eq_canon _ _ _ (cover_col _ _), View.canon_cons_unit_zero (S := S1024x1) hz]
  rw [load_block a2 h2 x0, load_block a3 h3 x1, load_block a4 h4 x2, load_col a6 h6 xs]

set_option maxHeartbeats 1000000 in
/-- Where a row block ends (the copy is made, the reset is not): the body adds the point's row sums to the column the
    scratch holds and copies the sum into the output buffer, whatever that held; the three input blocks are as they were. -/
theorem kernel_last (c : Dev nD) (E : Set ℕ) (i : grid1.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1 .f32) (h6 : a6.IsWhole)
    (hc1 : ¬cond1 i) (hc2 : cond2 i) (x0 x1 x2 : Vec F S1024x1024 .bf16) (xs : Vec F S1024x1 .f32) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare xs
        ∗ (iprop(owns (c : Thread nD τ) a2 fullShare x0 ∗ owns (c : Thread nD τ) a3 fullShare x1 ∗ owns (c : Thread nD τ) a4 fullShare x2
            ∗ owns (c : Thread nD τ) a5 fullShare (k1_pay2 i x0 x2 x1 x2 xs) ∗ owns (c : Thread nD τ) a6 fullShare (k1_pay2 i x0 x2 x1 x2 xs)) -∗ K ⟨⟩))
      ⊢ wp frame (wpE (defs₀ (F := F)) Variants.none c none) E (cc1_kernel i a2 h2 a3 h3 a4 h4 a5 h5 a6 h6) K := by
  simp only [cc1_kernel_eq_skeleton]; unfold cc1_kernel_skel
  unfold owns
  iintro ⟨⟨%f0, %hf0, H0⟩, ⟨%f1, %hf1, H1⟩, ⟨%f2, %hf2, H2⟩, ⟨%d, %f5, -, H5⟩, ⟨%f6, %hf6, H6⟩, Hk⟩
  obtain rfl := h2.eq_unread hf0; obtain rfl := h3.eq_unread hf1; obtain rfl := h4.eq_unread hf2
  obtain rfl := h6.eq_unread hf6
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H5]
  · iexists _; isplitr
    swap; · iexact H5
    ipureintro
    sl_unfold_run_names
    rw [View.read_writes_eq_canon _ _ _ (cover_col _ _), View.canon_cons_unit_zero (S := S1024x1) hz,
      View.readCov_unit_zero (S := S1024x1) _ hz]
    rw [load_block a2 h2 x0, load_block a3 h3 x1, load_block a4 h4 x2, load_col a6 h6 xs]
  iexists _; isplitr
  swap; · iexact H6
  ipureintro
  sl_unfold_run_names
  rw [View.read_writes_eq_canon _ _ _ (cover_col _ _), View.canon_cons_unit_zero (S := S1024x1) hz]
  rw [load_block a2 h2 x0, load_block a3 h3 x1, load_block a4 h4 x2, load_col a6 h6 xs]

/-! ## Each input window's buffer holds its block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The scratch column after point `t`: the point's update of the zero column where a row block starts, of the column
    before the point elsewhere. -/
theorem accAt_succ (c : Dev nD) (t : Fin cfg1.N) :
    accAt V c (t.val + 1) = stepAt V c t (if t.val % 8 = 0 then k1_pay1 else accAt V c t.val) := by
  rw [accAt, dif_pos t.isLt]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point. The input buffers hold their blocks; the point's residue mod 8 says which control case it is
    in. Where a row block starts the scratch is handed over at anything and comes back at the update of the zero column;
    elsewhere it is handed over at the column before the point and comes back at its update: in both cases the column
    after the point. The output buffer is handed back untouched except where a row block ends, and there it holds the
    column after the point. What the body never touches, and the core owing nothing, pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Φ1 V c t.succ from rfl, show (dat1 V c).Φ t.castSucc = Φ1 V c t.castSucc from rfl,
    show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  unfold Φ1
  rw [Fin.coe_castSucc, Fin.val_succ, accAt_succ V c t]
  unfold stepAt
  have hN : t.val < 64 := lt_of_lt_of_eq t.isLt N_1
  by_cases h0 : t.val % 8 = 0
  · have hc1 : cond1 (grid1.coords t) := (hcond1 t).mpr h0
    have hc2 : ¬cond2 (grid1.coords t) := fun h => by have := (hcond2 t).mp h; omega
    rw [Dat.leavesExact_idle (dat1 V c) 3 t (idle3_of t hc2) (noFlush3_of t hc2), if_pos h0]
    iintro ⟨⟨Hr, ⟨%X, -, HS⟩⟩, Ho, ⟨%d0, H0⟩, ⟨%d1, H1⟩, ⟨%d2, H2⟩, ⟨%d3, H3⟩⟩
    iapply (kernel_first c Set.univ (grid1.coords t) _ _ _ _ _ _ _ _ _ _ hc1 hc2
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [Hr HS]
    · isplitl [Hr]; · iexact Hr
      iexists _; isplitr
      swap; · iexact HS
      ipureintro; exact fun _ => rfl
    isplitl [Ho]; · iexact Ho
    isplitl [H0]; · iexact H0
    isplitl [H1]; · iexact H1
    isplitl [H2]; · iexact H2
    iexists d3; iexact H3
  · have hc1 : ¬cond1 (grid1.coords t) := fun h => h0 ((hcond1 t).mp h)
    rw [if_neg h0]
    by_cases h7 : t.val % 8 = 7
    · have hc2 : cond2 (grid1.coords t) := (hcond2 t).mpr h7
      rw [show (dat1 V c).leavesExact 3 t = owns (c : Thread nD τ) (st1_3 t) fullShare ((dat1 V c).after 3 t) from by
        unfold Dat.leavesExact; rw [live3_of t hc2], after1_3, accAt_succ V c t, if_neg h0]
      unfold stepAt
      iintro ⟨⟨Hr, ⟨%X, %hX, HS⟩⟩, Ho, ⟨%d0, H0⟩, ⟨%d1, H1⟩, ⟨%d2, H2⟩, ⟨%d3, H3⟩⟩
      obtain rfl := hX h0
      iapply (kernel_last c Set.univ (grid1.coords t) _ _ _ _ _ _ _ _ _ _ hc1 hc2
        (iblk1 V c 0 t) (iblk1 V c 1 t) (iblk1 V c 2 t) (accAt V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS]
      · isplitl [Hr]; · iexact Hr
        iexists _; isplitr
        swap; · iexact HS
        ipureintro; exact fun _ => rfl
      isplitl [Ho]; · iexact Ho
      isplitl [H0]; · iexact H0
      isplitl [H1]; · iexact H1
      isplitl [H2]; · iexact H2
      iexact H3
    · have hc2 : ¬cond2 (grid1.coords t) := fun h => h7 ((hcond2 t).mp h)
      rw [Dat.leavesExact_idle (dat1 V c) 3 t (idle3_of t hc2) (noFlush3_of t hc2)]
      iintro ⟨⟨Hr, ⟨%X, %hX, HS⟩⟩, Ho, ⟨%d0, H0⟩, ⟨%d1, H1⟩, ⟨%d2, H2⟩, ⟨%d3, H3⟩⟩
      obtain rfl := hX h0
      iapply (kernel_mid c Set.univ (grid1.coords t) _ _ _ _ _ _ _ _ _ _ hc1 hc2
        (iblk1 V c 0 t) (iblk1 V c 1 t) (iblk1 V c 2 t) ((dat1 V c).before 3 t d3) (accAt V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS]
      · isplitl [Hr]; · iexact Hr
        iexists _; isplitr
        swap; · iexact HS
        ipureintro; exact fun _ => rfl
      isplitl [Ho]; · iexact Ho
      isplitl [H0]; · iexact H0
      isplitl [H1]; · iexact H1
      isplitl [H2]; · iexact H2
      iexists d3; iexact H3

/-- The body obligation of region 1 at every grid point. -/
theorem body_obligation1 (c : Dev nD) : BodyObligation (dat1 (F := F) V c) (defs₀ (F := F)) Variants.none () Set.univ := fun t => by
  rw [bigSep_W1, bigSep_W1]
  exact sound_body1 V c t

/-- The invariant at the first point, from the generator register and the scoped buffers region 1 does not stage. -/
theorem Φ1_in (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [scopedRest1_eq]
  show _ ⊢ Φ1 V c 0
  unfold Φ1 others
  simp only [scM, owns_whole]
  iintro ⟨Hp, H0, H1, H2, H3, H4, H5, H6, ⟨%f, H7⟩⟩
  isplitl [Hp H0 H1 H2 H3 H4 H5 H6]
  · isplitl [Hp]; · iexact Hp
    isplitl [H0]; · iexact H0
    isplitl [H1]; · iexact H1
    isplitl [H2]; · iexact H2
    isplitl [H3]; · iexact H3
    isplitl [H4]; · iexact H4
    isplitl [H5]; · iexact H5
    iexact H6
  iexists f
  isplitr; · ipureintro; exact fun h => absurd rfl h
  iexact H7

/-- The invariant at the last point gives both back. -/
theorem Φ1_out (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [scopedRest1_eq]
  show Φ1 V c (Fin.last cfg1.N) ⊢ _
  unfold Φ1 others
  simp only [scM, owns_whole]
  iintro ⟨⟨Hp, H0, H1, H2, H3, H4, H5, H6⟩, ⟨%X, -, H7⟩⟩
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X
  iexact H7

end Cert.Kernel.R1

end
-- ==== Proof.K.LaunchDefs.lean ====
/-
  The run of the program as a whole: what the two regions leave in the arrays they write, the proof data of both
  pipelines at their entry contents, and the thread state that rides beside the buffers between items.
  Region 0 leaves cn and dn in main_v1_0 and main_v1_1 (the fold of its write-backs); region 1, entered with those,
  leaves the score column in main_v2.
-/
import proofs.«127008_j80152679678829_1_alg».proof.Proof.K.Reg0
import proofs.«127008_j80152679678829_1_alg».proof.Proof.K.Reg1
import proofs.«127008_j80152679678829_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.R0 Cert.Kernel.R1
open Idealize.ShloMosaic.Pipeline (RegionSeg)

variable (m : (ℓ : Loc nD τ sig) → Buf (Elt F) ℓ)

/-- The buffers region 0 is entered with: the launch memory after the reshape of the query. -/
abbrev E1 : (c : Dev nD) → (b : Ref sig .tc) → Buf (Elt F) ((c : Thread nD τ).loc b) := fun c b => Gen.V1 m c b

/-- What region 0 leaves: cn in `main_v1_0`, dn in `main_v1_1` (every other reference: the launch memory, unread). -/
def outsA : Gen.Outs (F := F) := fun _ r c =>
  if h : r = main_v1_0 then h ▸ (dat0 (E1 m) c).arrAt 2 cfg0.N
  else if h : r = main_v1_1 then h ▸ (dat0 (E1 m) c).arrAt 3 cfg0.N
  else m ((c : Thread nD τ).loc r)

/-- The buffers region 1 is entered with. -/
abbrev E2 : (c : Dev nD) → (b : Ref sig .tc) → Buf (Elt F) ((c : Thread nD τ).loc b) := fun c b => Gen.V2 m (outsA m) c b

/-- What both regions leave: as `outsA`, and the score column in `main_v2`. -/
def outs : Gen.Outs (F := F) := fun j r c =>
  if h : r = main_v2 then h ▸ (dat1 (E2 m) c).arrAt 3 cfg1.N
  else outsA m j r c

theorem outsA_v1_0 (j : ℕ) (c : Dev nD) : outsA m j main_v1_0 c = (dat0 (E1 m) c).arrAt 2 cfg0.N := by
  unfold outsA; rw [dif_pos rfl]
theorem outsA_v1_1 (j : ℕ) (c : Dev nD) : outsA m j main_v1_1 c = (dat0 (E1 m) c).arrAt 3 cfg0.N := by
  unfold outsA; rw [dif_neg (by decide), dif_pos rfl]
theorem outs_v1_0 (j : ℕ) (c : Dev nD) : outs m j main_v1_0 c = (dat0 (E1 m) c).arrAt 2 cfg0.N := by
  unfold outs; rw [dif_neg (by decide)]; exact outsA_v1_0 m j c
theorem outs_v1_1 (j : ℕ) (c : Dev nD) : outs m j main_v1_1 c = (dat0 (E1 m) c).arrAt 3 cfg0.N := by
  unfold outs; rw [dif_neg (by decide)]; exact outsA_v1_1 m j c
theorem outs_v2 (j : ℕ) (c : Dev nD) : outs m j main_v2 c = (dat1 (E2 m) c).arrAt 3 cfg1.N := by
  unfold outs; rw [dif_pos rfl]

/-- Region 1's entry contents do not depend on what region 1 itself leaves. -/
theorem V2_outs (c : Dev nD) : Gen.V2 m (outs m) c = Gen.V2 m (outsA m) c := by
  unfold Gen.V2; rw [outs_v1_0, outs_v1_1, outsA_v1_0, outsA_v1_1]

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The rest state between items, the same at every boundary. -/
abbrev E : Fin 3 → Dev nD → sProp 𝕄 := fun _ c => R (F := F) c

end Cert.Kernel.Run

end
-- ==== Proof.K.Seg0.lean ====
/-
  Region 0 as a segment of the run: entered with every unscoped buffer at the contents after the query's reshape,
  left with cn and dn written. Its four arrays are split out of the unscoped buffers at entry and put back at exit.
-/
import proofs.«127008_j80152679678829_1_alg».proof.Proof.K.LaunchDefs
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Cert.Kernel.R0 Cert.Kernel.R1
open Idealize.ShloMosaic.Pipeline (RegionSeg)

variable (m : (ℓ : Loc nD τ sig) → Buf (Elt F) ℓ)

/-- The query's window (an input) is never written: its array at the end is the entry array, which the exit valuation
    keeps (the region may change only cn and dn). -/
theorem hF0_0 (c : Dev nD) :
    (dat0 (E1 m) c).arrAt (0 : Fin cfg0.W) cfg0.N = Gen.V2 m (outs m) c (Pipeline.arrRef spec0 (0 : Fin cfg0.W)) := by
  rw [Pipeline.Dat.arrAt_in (dat0 (E1 m) c) (0 : Fin cfg0.W) rfl, A_eq0]
  exact (Gen.V2_of m (outs m) c (Pipeline.arrRef spec0 (0 : Fin cfg0.W)) (by decide)).symm

/-- The documents' window (an input): as for the query. -/
theorem hF0_1 (c : Dev nD) :
    (dat0 (E1 m) c).arrAt (1 : Fin cfg0.W) cfg0.N = Gen.V2 m (outs m) c (Pipeline.arrRef spec0 (1 : Fin cfg0.W)) := by
  rw [Pipeline.Dat.arrAt_in (dat0 (E1 m) c) (1 : Fin cfg0.W) rfl, A_eq0]
  exact (Gen.V2_of m (outs m) c (Pipeline.arrRef spec0 (1 : Fin cfg0.W)) (by decide)).symm

/-- cn's window: the exit valuation's entry at cn is, by the choice of what the region leaves, the fold of the
    write-backs of window 2 (the later update, at dn, is at another reference). -/
theorem hF0_2 (c : Dev nD) :
    (dat0 (E1 m) c).arrAt (2 : Fin cfg0.W) cfg0.N = Gen.V2 m (outs m) c (Pipeline.arrRef spec0 (2 : Fin cfg0.W)) := by
  show _ = Function.update (Function.update (Gen.V1 m c) main_v1_0 (outs m 2 main_v1_0 c)) main_v1_1 (outs m 2 main_v1_1 c) main_v1_0
  rw [Function.update_of_ne (StableHlo.devRef_ne_of_ne (by decide)), Function.update_self, outs_v1_0]

/-- dn's window: the exit valuation's entry at dn is the fold of the write-backs of window 3. -/
theorem hF0_3 (c : Dev nD) :
    (dat0 (E1 m) c).arrAt (3 : Fin cfg0.W) cfg0.N = Gen.V2 m (outs m) c (Pipeline.arrRef spec0 (3 : Fin cfg0.W)) := by
  show _ = Function.update (Function.update (Gen.V1 m c) main_v1_0 (outs m 2 main_v1_0 c)) main_v1_1 (outs m 2 main_v1_1 c) main_v1_1
  rw [Function.update_self, outs_v1_1]

/-- The array of each window of region 0 after the last point is what the exit valuation holds there. -/
theorem hF0 (c : Dev nD) (w : Fin cfg0.W) :
    (dat0 (E1 m) c).arrAt w cfg0.N = Gen.V2 m (outs m) c (Pipeline.arrRef spec0 w) :=
  match w with
  | ⟨0, _⟩ => hF0_0 m c
  | ⟨1, _⟩ => hF0_1 m c
  | ⟨2, _⟩ => hF0_2 m c
  | ⟨3, _⟩ => hF0_3 m c

/-- Off region 0's four arrays the exit valuation is the entry valuation: the two references it differs at are the
    arrays of windows 2 and 3. -/
theorem hrest0 (c : Dev nD) :
    ∀ b, b ∉ Finset.univ.image (Pipeline.arrRef spec0) → Gen.V2 m (outs m) c b = Gen.V1 m c b := fun b hb =>
  Gen.V2_of m (outs m) c b (by
    intro hmem
    simp only [List.mem_cons, List.not_mem_nil, or_false] at hmem
    rcases hmem with rfl | rfl
    · exact hb (Finset.mem_image.mpr ⟨2, Finset.mem_univ _, rfl⟩)
    · exact hb (Finset.mem_image.mpr ⟨3, Finset.mem_univ _, rfl⟩))

set_option backward.isDefEq.respectTransparency.types false in
/-- Region 0 over the thread state: entered with every unscoped buffer at the contents after the reshape, left with
    them at the same contents but for cn and dn, which hold the folds of the write-backs. The core's random-number register rides
    into the pipeline's invariant and out again; nothing is owed at any point; the kernel has no semaphore of its own. -/
def reg0 : RegionSeg (pcfgs (F := F)) (Gen.adm (F := F)) (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    -- the unscoped buffers at the entry contents are the four arrays at their entry contents and the rest
    have hcut := Pipeline.arrays_of_unscopedBufs (p := 0) (pcfgs (F := F)) (Gen.adm (F := F)) (pdats m) Gen.launch0.win
      Gen.launch0.arr_whole c ((pdats m 0 c).share_full fun _ => rfl) (E1 m c) fun _ => rfl
    rw [Pipeline.unscopedBufs_held] at hcut
    rw [Pipeline.ownSems0_none]
    iintro ⟨⟨Hbufs, Hreg, Howes⟩, -, -⟩
    ihave Hcut := hcut $$ Hbufs
    icases Hcut with ⟨Harr, Hrest⟩
    imodintro
    isplitl [Harr]
    · iexact Harr
    isplitr
    · -- no prefetched table: an empty product
      unfold Pipeline.prefHeld
      rw [show (Finset.univ : Finset (Fin 0)) = ∅ from rfl, BI.bigSep_empty]
      iempintro
    isplitl [Howes]
    · -- nothing owed at the first tallies
      unfold Pipeline.Dat.owesAt Pipeline.owesWithin
      icases Howes with ⟨%W, Howes⟩
      iexists W
      isplitr
      · ipureintro; exact fun _ _ => Or.inl trivial
      iexact Howes
    isplitl [Hreg]
    · iexact Hreg
    iexact Hrest
  hin c := by
    rw [show (pdats m 0 c).Φ 0 = Pipeline.ΦA spec0 c from rfl]
    unfold Pipeline.ΦA
    iintro ⟨Hreg, -, Hsc⟩
    isplitl [Hsc]
    · iexact Hsc
    iexact Hreg
  hout c := by
    rw [Pipeline.ownSems0_none, show (pdats m 0 c).Φ (Fin.last _) = Pipeline.ΦA spec0 c from rfl]
    unfold Pipeline.ΦA
    iintro ⟨Hsc, Hreg⟩
    isplitl [Hreg]
    · iexact Hreg
    isplitr
    · iempintro
    iexact Hsc
  hexit c := by
    -- the four arrays at their final contents and the rest at the entry contents are the unscoped buffers at the
    -- exit valuation, which has the arrays at those contents and agrees with the entry valuation elsewhere
    have hglue := Pipeline.unscopedBufs_of_arrays (p := 0) (pcfgs (F := F)) (Gen.adm (F := F)) (Ix := Unit) (Name := ℕ)
      (U := UR sig nD τ) (Lvl := ℕ) Gen.launch0.win Gen.launch0.arr_whole c (pdats m)
      ((pdats m 0 c).share_full fun _ => rfl) (E1 m c) (fun b => Gen.V2 m (outs m) c b)
      ((pdats m 0 c).arrAt · cfg0.N) (hF0 m c) (hrest0 m c)
    rw [Pipeline.unscopedBufs_held] at hglue
    iintro ⟨Harr, Howes, Hreg, Hrest⟩
    imodintro
    isplitl [Harr Hrest]
    · iapply hglue
      isplitl [Harr] <;> iassumption
    isplitl [Hreg]
    · iexact Hreg
    unfold Pipeline.Dat.owesAt Pipeline.owesWithin
    icases Howes with ⟨%W, -, Howes⟩
    iexists W
    iexact Howes

/-- The thread state before region 0 is the region's entry state: the rest at boundary 0 is the register and the
    empty debt. -/
theorem hpre0 (c : Dev nD) :
    iprop(StableHlo.held (c : Thread nD τ) (Pipeline.ucRefs τ sig) (Gen.V1 m c) ∗ E (F := F) 0 c) ⊢ (reg0 m).pre c :=
  .rfl

/-- The region's exit state is the thread state after region 0. -/
theorem hpost0 (c : Dev nD) :
    (reg0 m).post c ⊢ iprop(StableHlo.held (c : Thread nD τ) (Pipeline.ucRefs τ sig) (Gen.V2 m (outs m) c) ∗ E (F := F) 1 c) :=
  .rfl

end Cert.Kernel.Run

end
-- ==== Proof.K.Seg1.lean ====
/-
  Region 1 as a segment of the run: entered with cn and dn in place, left with the score column written.
  Two of its windows read dn, so at entry dn's buffer is dealt to them as two half shares and at exit the halves are joined.
-/
import proofs.«127008_j80152679678829_1_alg».proof.Proof.K.LaunchDefs

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Cert.Kernel.R0 Cert.Kernel.R1
open Idealize.ShloMosaic.Pipeline (RegionSeg)

variable (m : (ℓ : Loc nD τ sig) → Buf (Elt F) ℓ)

/-- The distinct buffers behind region 1's four windows: cn's, dn's (read through two windows) and the score column's. -/
theorem arrRefs1 : (Finset.univ : Finset (Fin 4)).image (Pipeline.arrRef spec1) = ([main_v1_0, main_v1_1, main_v2] : List (Ref sig .tc)).toFinset := by
  decide

/-- Those three buffers, each whole at the full share, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1_0) ↦{fullShare} V main_v1_0) ∗ (((c : Thread nD τ).loc main_v1_1) ↦{fullShare} V main_v1_1)
          ∗ (((c : Thread nD τ).loc main_v2) ↦{fullShare} V main_v2)) := by
  unfold Pipeline.arrBufs
  exact bigSep_eq_bigSepL_of_eq _ arrRefs1 (by decide) _

section Shares

variable (V : (c : Dev nD) → (b : Ref sig .tc) → Buf (Elt F) ((c : Thread nD τ).loc b))

/-- The share each window holds of its array: cn's reader and the writer of the score column the whole of theirs,
    dn's two readers one half each. -/
theorem share1_0 (c : Dev nD) : (dat1 V c).share 0 = fullShare := by
  unfold Dat.share; rw [if_neg (by decide), q1_0]
theorem share1_1 (c : Dev nD) : (dat1 V c).share 1 = fullShare.left := by
  unfold Dat.share; rw [if_neg (by decide), q1_1]
theorem share1_2 (c : Dev nD) : (dat1 V c).share 2 = fullShare.right := by
  unfold Dat.share; rw [if_neg (by decide), q1_2]
theorem share1_3 (c : Dev nD) : (dat1 V c).share 3 = fullShare := by
  unfold Dat.share; rw [if_pos (by decide)]

/-- The four windows' arrays one by one: whole buffers, so each is held at every element. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1_0) ↦{fullShare} G 0) ∗ (((c : Thread nD τ).loc main_v1_1) ↦{fullShare.left} G 1)
          ∗ (((c : Thread nD τ).loc main_v1_1) ↦{fullShare.right} G 2) ∗ (((c : Thread nD τ).loc main_v2) ↦{fullShare} G 3)) := by
  unfold Dat.arrays
  rw [Gen.bigSep_W1, (arr_whole1 0).set_eq_univ, (arr_whole1 1).set_eq_univ, (arr_whole1 3).set_eq_univ,
    share1_0, share1_1, share1_2, share1_3]

end Shares

section Deal

variable (V : (c : Dev nD) → (b : Ref sig .tc) → Buf (Elt F) ((c : Thread nD τ).loc b))

/-- ENTRY, the arrays. The three buffers at the entry contents are the four windows' arrays at their entry contents:
    cn's buffer goes to window 0 and the score column's to window 3 whole; dn's buffer, read through windows 1 and 2,
    is dealt as the two halves of its full share, both at dn's contents. -/
theorem arrays_of_arrBufs1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hcn, Hdn, Hcol⟩
  ihave Hdn := (pointsTo_share (PosShare.mem_left_op_right fullShare)).1 $$ Hdn
  icases Hdn with ⟨Hl, Hr⟩
  isplitl [Hcn]
  · iexact Hcn
  isplitl [Hl]
  · iexact Hl
  isplitl [Hr]
  · iexact Hr
  iexact Hcol

/-- EXIT, the arrays. The four windows' arrays after the last point are the three buffers at any contents that keep cn
    and dn as entered and hold the fold of window 3's write-backs in the score column: the input windows' arrays are
    never written, so both halves of dn's share still hold dn and join to the full share. -/
theorem arrBufs_of_arrays1 (c : Dev nD) (V' : (b : Ref sig .tc) → Buf (Elt F) ((c : Thread nD τ).loc b))
    (hcn : V' main_v1_0 = V c main_v1_0) (hdn : V' main_v1_1 = V c main_v1_1)
    (hcol : V' main_v2 = (dat1 V c).arrAt 3 cfg1.N) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, arrays1_eq, Pipeline.Dat.arrAt_in (dat1 V c) 0 rfl, Pipeline.Dat.arrAt_in (dat1 V c) 1 rfl,
    Pipeline.Dat.arrAt_in (dat1 V c) 2 rfl, A_eq1, A_eq1, A_eq1, hcn, hdn, hcol]
  iintro ⟨Hcn, Hl, Hr, Hcol⟩
  isplitl [Hcn]
  · iexact Hcn
  isplitl [Hl Hr]
  · iapply (pointsTo_share (PosShare.mem_left_op_right fullShare)).2
    isplitl [Hl]
    · iexact Hl
    iexact Hr
  iexact Hcol

end Deal

/-! ## The exit valuation against the entry valuation -/

/-- cn is as region 1 was entered with it: the region may change only the score column. -/
theorem V3_cn (c : Dev nD) : Gen.V3 m (outs m) c main_v1_0 = E2 m c main_v1_0 := by
  rw [Gen.V3_of m (outs m) c main_v1_0 (by decide), V2_outs]

/-- dn likewise. -/
theorem V3_dn (c : Dev nD) : Gen.V3 m (outs m) c main_v1_1 = E2 m c main_v1_1 := by
  rw [Gen.V3_of m (outs m) c main_v1_1 (by decide), V2_outs]

/-- The score column holds what region 1 leaves there, by the choice of that: the fold of window 3's write-backs. -/
theorem V3_col (c : Dev nD) : Gen.V3 m (outs m) c main_v2 = (dat1 (E2 m) c).arrAt 3 cfg1.N := by
  show Function.update (Gen.V2 m (outs m) c) main_v2 (outs m 3 main_v2 c) main_v2 = _
  rw [Function.update_self, outs_v2]

/-- Off the three buffers the exit valuation is the entry valuation: it differs from it at the score column alone. -/
theorem unscopedRest1_exit (c : Dev nD) :
    (Pipeline.unscopedRest (Ix := Unit) (Name := ℕ) (U := UR sig nD τ) (Lvl := ℕ) spec1 c (E2 m c) : sProp 𝕄)
      = Pipeline.unscopedRest spec1 c (fun b => Gen.V3 m (outs m) c b) := by
  unfold Pipeline.unscopedRest
  refine bigSep_congr fun b hb => ?_
  have hb' : b ∉ ([main_v2] : List (Ref sig .tc)) := fun hmem => by
    rw [List.mem_singleton] at hmem
    exact (Finset.mem_sdiff.mp hb).2 (Finset.mem_image.mpr ⟨3, Finset.mem_univ _, hmem.symm⟩)
  have h : Gen.V3 m (outs m) c b = E2 m c b := by rw [Gen.V3_of m (outs m) c b hb', V2_outs]
  exact congrArg (fun f => (((c : Thread nD τ).loc b) ↦{fullShare} f : sProp 𝕄)) h.symm

/-! ## The unscoped buffers around the region -/

/-- ENTRY: every unscoped buffer at the entry valuation is the four arrays at their entry contents and the buffers
    no window reads or writes. -/
theorem entry1 (c : Dev nD) :
    StableHlo.held (c : Thread nD τ) (Pipeline.ucRefs τ sig) (Gen.V2 m (outs m) c)
      ⊢ (iprop((dat1 (E2 m) c).arrays ((dat1 (E2 m) c).arrAt · 0)
          ∗ Pipeline.unscopedRest (Ix := Unit) (Name := ℕ) (U := UR sig nD τ) (Lvl := ℕ) spec1 c (E2 m c)) : sProp 𝕄) := by
  rw [V2_outs, ← Pipeline.unscopedBufs_held (Ix := Unit) (Name := ℕ) (U := UR sig nD τ) (Lvl := ℕ) c (Gen.V2 m (outsA m) c),
    Pipeline.unscopedBufs_split₀ cfgs 1 winFacts₀1.arr_unscoped c]
  exact sep_mono (arrays_of_arrBufs1 (E2 m) c) .rfl

/-- EXIT: the four arrays after the last point and the untouched buffers are every unscoped buffer at the exit
    valuation. -/
theorem exit1 (c : Dev nD) :
    (iprop((dat1 (E2 m) c).arrays ((dat1 (E2 m) c).arrAt · cfg1.N)
        ∗ Pipeline.unscopedRest (Ix := Unit) (Name := ℕ) (U := UR sig nD τ) (Lvl := ℕ) spec1 c (E2 m c)) : sProp 𝕄)
      ⊢ StableHlo.held (c : Thread nD τ) (Pipeline.ucRefs τ sig) (Gen.V3 m (outs m) c) := by
  rw [← Pipeline.unscopedBufs_held (Ix := Unit) (Name := ℕ) (U := UR sig nD τ) (Lvl := ℕ) c (Gen.V3 m (outs m) c),
    Pipeline.unscopedBufs_split₀ cfgs 1 winFacts₀1.arr_unscoped c, unscopedRest1_exit]
  exact sep_mono (arrBufs_of_arrays1 (E2 m) c _ (V3_cn m c) (V3_dn m c) (V3_col m c)) .rfl

/-! ## The region as a segment -/

set_option backward.isDefEq.respectTransparency.types false in
/-- Region 1 over the thread state: entered with every unscoped buffer at the contents region 0 left (cn and dn in
    place), left with them at the same contents but for the score column, which holds the fold of window 3's
    write-backs. dn's buffer is read through two windows, so it enters the pipeline as two half shares and comes back
    whole. The core's random-number register rides into the pipeline's invariant and out again; nothing is owed at any
    point; the kernel has no semaphore of its own. -/
def reg1 : RegionSeg (pcfgs (F := F)) (Gen.adm (F := F)) (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hbufs, Hreg, Howes⟩, -, -⟩
    ihave Hcut := entry1 m c $$ Hbufs
    icases Hcut with ⟨Harr, Hrest⟩
    imodintro
    isplitl [Harr]
    · iexact Harr
    isplitr
    · -- the kernel has no prefetched table: the product over none of them
      unfold Pipeline.prefHeld
      rw [show (Finset.univ : Finset (Fin 0)) = ∅ from rfl, BI.bigSep_empty]
      iempintro
    isplitl [Howes]
    · -- the zero tallies, the recorded pairs under the bound that allows every pair
      unfold Pipeline.Dat.owesAt Pipeline.owesWithin
      icases Howes with ⟨%W, Howes⟩
      iexists W
      isplitr
      · ipureintro
        exact fun _ _ => Or.inl (Set.mem_univ _)
      iexact Howes
    isplitl [Hreg]
    · iexact Hreg
    iexact Hrest
  hin c := by
    -- pipeline 1's proof data are region 1's, at the entry contents
    refine BIBase.Entails.trans ?_ (Φ1_in (E2 m) c)
    iintro ⟨Hreg, -, Hsc⟩
    isplitl [Hreg]
    · iexact Hreg
    iexact Hsc
  hout c := by
    rw [Pipeline.ownSems0_none]
    refine BIBase.Entails.trans (Φ1_out (E2 m) c) ?_
    iintro ⟨Hreg, Hsc⟩
    isplitl [Hreg]
    · iexact Hreg
    isplitr
    · iempintro
    iexact Hsc
  hexit c := by
    iintro ⟨Harr, Howes, Hreg, Hrest⟩
    imodintro
    isplitl [Harr Hrest]
    · iapply exit1 m c
      isplitl [Harr]
      · iexact Harr
      iexact Hrest
    isplitl [Hreg]
    · iexact Hreg
    unfold Pipeline.Dat.owesAt Pipeline.owesWithin
    icases Howes with ⟨%W, -, Howes⟩
    iexists W
    iexact Howes

/-- The thread state before region 1 is the region's entry state: the rest at boundary 1 is the register and the
    empty debt. -/
theorem hpre1 (c : Dev nD) :
    iprop(StableHlo.held (c : Thread nD τ) (Pipeline.ucRefs τ sig) (Gen.V2 m (outs m) c) ∗ E (F := F) 1 c) ⊢ (reg1 m).pre c :=
  .rfl

/-- The region's exit state is the thread state after region 1. -/
theorem hpost1 (c : Dev nD) :
    (reg1 m).post c ⊢ iprop(StableHlo.held (c : Thread nD τ) (Pipeline.ucRefs τ sig) (Gen.V3 m (outs m) c) ∗ E (F := F) 2 c) :=
  .rfl

end Cert.Kernel.Run

end
-- ==== Proof.K.RunMain.lean ====
/-
  The whole run: every weakly fair execution of the program terminates, the result buffer holds the fold of the host
  operations over what the two regions leave, and the three arguments end as launched.

  The program is a list of nine items: the reshape of the query, the two kernel regions, and six stretches of host
  operations. Between two items a core holds every unscoped buffer whole at the contents the fold has reached
  (V0 at launch, ..., V9 at the end) beside its generator register at some state and nothing owed. The launch deals
  each core exactly that at V0; each region's record carries it across the region; each host stretch carries it by
  running its operations over the valuation. At the end the buffers are read against the final memory, so every
  unscoped buffer of the final memory is V9's: the result buffer is V9 at the result, and an argument, which no item
  writes, is still the launch memory's.
-/
import proofs.«127008_j80152679678829_1_alg».proof.Proof.K.Seg0
import proofs.«127008_j80152679678829_1_alg».proof.Proof.K.Seg1

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
open Cert.Kernel.R0 Cert.Kernel.R1
open Idealize.ShloMosaic.Pipeline (RegionSeg)

variable (m : (ℓ : Loc nD τ sig) → Buf (Elt F) ℓ)

/-- The nine items of the program on a core. -/
abbrev items (c : Dev nD) : List (Pipeline.Seg (pcfgs (F := F)) (Gen.adm (F := F)) (pdats m) () defs₀ 𝒱₀ L lv) :=
  Gen.segs m (outs m) 𝒱₀ L lv (E (F := F)) () (pdats m) (reg0 m) (reg1 m) c

/-- The rest state is the generator register beside nothing owed, so in particular nothing is owed. -/
theorem rest_owes_nothing (j : Fin 3) (c : Dev nD) :
    E (F := F) j c ⊢ (iprop(∃ W, owes (c : Thread nD τ) (0 : CellTallies nD τ sig Unit) W) : sProp 𝕄) := by
  iintro ⟨-, HO⟩
  iexact HO

/-- What the launch deals a core — its unscoped buffers at the launch memory, its generator register, nothing owed —
    is the state before the first item. -/
theorem launch_state (ρ : Dev nD → PrngReg) (c : Dev nD) :
    iprop(iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (fun _ : Dev nD => (iprop(emp) : sProp 𝕄)) c) ∗ levAts L lv)
      ⊢ (|={Set.univ}=> iprop(StableHlo.held (c : Thread nD τ) (Pipeline.ucRefs τ sig) (Gen.V0 m c) ∗ E (F := F) 0 c) : sProp 𝕄) := by
  rw [show unscopedBufs c (fun b => m ((c : Thread nD τ).loc b)) = StableHlo.held (c : Thread nD τ) (Pipeline.ucRefs τ sig) (Gen.V0 m c)
    from Pipeline.unscopedBufs_held c (Gen.V0 m c)]
  iintro ⟨⟨Hbufs, -, Howes, -, Hreg, -⟩, -⟩
  imodintro
  isplitl [Hbufs]; · iexact Hbufs
  isplitl [Hreg]; · iexists _; iexact Hreg
  iexists ∅; iexact Howes

set_option backward.isDefEq.respectTransparency.types false in
/-- Every weakly fair execution from memory `m` with zero counters terminates; at the end the result buffer holds the
    last valuation of the fold at the result, and the three arguments hold what they were launched with. -/
theorem run_main (ρ : Dev nD → PrngReg) :
    θ_run defs (onTc (τ := τ) (main (F := F))) ⟨m, fun _ => 0, ρ⟩ (fun r => ∀ c : Dev nD,
      r.2.mem ((c.tc : Thread nD τ).loc main_v24) = Gen.V9 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ L lv m ρ main
    (items m)
    (fun c Q => ?_)
    (fun c => by simp only [items, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V9 m (outs m) c))
    (hch := fun c => ⟨.rfl, hpre0 m c, (hpost0 m c).trans (hpre1 m c), hpost1 m c, .rfl, .rfl, .rfl, .rfl, .rfl,
      sep_mono .rfl (rest_owes_nothing 2 c)⟩)
    (hinit := Pipeline.initEach L lv (launch_state m ρ))
    (QY := fun c s => s.mem ((c.tc : Thread nD τ).loc main_v24) = Gen.V9 m (outs m) c main_v24
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the program is the chain of its nine items' programs, and so is the run of the nine segments
    rewrite [main_chain c, Pipeline.Seg.run_eq_chain,
      show (items m c).map Pipeline.Seg.prog = [
        StableHlo.seq hostOps0,
        Prog.lift (.customCall (Pipeline.entry 0) ()),
        Prog.lift (.customCall (Pipeline.entry 1) ()),
        StableHlo.seq hostOps2,
        StableHlo.seq hostOps2_1,
        StableHlo.seq hostOps2_2,
        StableHlo.seq hostOps2_3,
        StableHlo.seq hostOps2_4,
        StableHlo.seq hostOps2_5 ] from rfl]
    exact .rfl
  · -- the launch's ghost element is the staging cells' own; no further resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the end: the unscoped buffers, held at V9, agree with the final memory; the result is V9's, and an argument,
    -- written by no item, is the launch memory's
    unfold StableHlo.held
    iintro ⟨Hbufs, HSI⟩
    ihave Hr := (pointsTo_read_all (Pipeline.ucRefs τ sig) (fun b => ((c : Thread nD τ).1, b)) (Gen.V9 m (outs m) c) s') $$ [Hbufs HSI]
    · isplitl [Hbufs] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (Gen.V9_main_arg0 m (outs m) c),
        (h (Proc.devRef .tc main_arg1) (Finset.mem_filter.mpr ⟨StableHlo.devRef_mem_tcRefs main_arg1, by decide⟩)).trans (Gen.V9_main_arg1 m (outs m) c),
        (h (Proc.devRef .tc main_arg2) (Finset.mem_filter.mpr ⟨StableHlo.devRef_mem_tcRefs main_arg2, by decide⟩)).trans (Gen.V9_main_arg2 m (outs m) c)⟩
    · iexact HSI

end Cert.Kernel.Run

end
-- ==== Proof.KI.Reg0.lean ====
/-
  Region 0 (the normalising kernel, grid of 16 row blocks of 512 rows): what each staging buffer holds after the body
  at a grid point, as a function of the blocks the point reads, and the body's obligation at every point.
  At point t the body reads the 1x1024 query row (window 0) and the 512x1024 block of documents (window 1), and stores
  the two normalised blocks: window 2 gets unit((q + d) / 2) row by row, window 3 gets unit(d) row by row.
-/
import proofs.«127008_j80152679678829_1_alg».proof.Proof.Gen.KernelIdeal.Launch
import proofs.«127008_j80152679678829_1_alg».proof.Proof.Gen.KernelIdeal.Skeleton
import proofs.«127008_j80152679678829_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: arrays as found; the inputs' buffers keep their blocks, output window 2
    ends at the normalised half-sum block, output window 3 at the normalised document block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 1 t) (iblk0 V c 0 t)
    | ⟨3, _⟩ => k0_pay2 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 1 t) (iblk0 V c 0 t) := by dsimp only [dat0]
theorem after0_3 (c : Dev nD) (t : Fin cfg0.N) : (dat0 V c).after 3 t = k0_pay2 (iblk0 V c 1 t) := by dsimp only [dat0]

/-! ## The input windows' buffers at a point -/

/-- The query row's buffer holds the one query block at every point: it is fetched at the first point only, and the
    window's block index never moves, so a point that does not fetch still finds the block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The document window's buffer holds the point's block of 512 rows: it is fetched at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body on whole buffers -/

/-- The rectangle of the whole 1x1024 row and of the whole 512x1024 block: zero offsets, the buffer's own sizes. -/
abbrev rq : Rect S1x1024 := Rect.unit (s := S1x1024) ![0, 0] S1x1024.size inb_S1x1024_S1x1024_0_0
abbrev rd : Rect S512x1024 := Rect.unit (s := S512x1024) ![0, 0] S512x1024.size inb_S512x1024_S512x1024_0_0

theorem zeros2 : (![0, 0] : Fin 2 → Nat) = fun _ => 0 := by
  funext a; fin_cases a <;> rfl

/-- One store through the rectangle of the whole block covers the buffer. -/
theorem cover_whole (p : Vec F S512x1024 .bf16) (y : S512x1024.Idx) :
    ∃ pc ∈ ([⟨rd, p⟩] : List (View.Piece (Elt F) S512x1024 .bf16)), y ∈ pc.1.set :=
  ⟨_, List.mem_singleton_self _, View.mem_set_unit_zero zeros2 inb_S512x1024_S512x1024_0_0 y⟩

set_option maxHeartbeats 1000000 in
/-- The body on whole buffers: the query row's buffer reads x0, the document block's reads x1, the two output
    buffers hold anything. It loads both inputs whole, and stores each normalised block through the rectangle of the
    whole buffer, so each output buffer ends at exactly its stored block; the inputs are left as they were. -/
theorem sound_kernel0 (c : Dev nD) (E : Set ℕ) (i : grid0.Coords)
    (arg1 : Memref sig .tc .vmem S1x1024 .f32) (harg1 : arg1.IsWhole)
    (arg2 : Memref sig .tc .vmem S512x1024 .f32) (harg2 : arg2.IsWhole)
    (arg3 : Memref sig .tc .vmem S512x1024 .bf16) (harg3 : arg3.IsWhole)
    (arg4 : Memref sig .tc .vmem S512x1024 .bf16) (harg4 : arg4.IsWhole)
    (x0 : Vec F S1x1024 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay1 x1 x0)
            ∗ owns (c : Thread nD τ) arg4 fullShare (k0_pay2 x1)) -∗ K ⟨⟩))
      ⊢ wp frame (wpE (defs₀ (F := F)) Variants.none c none) E
          (cc0__norm_kernel i arg1 harg1 arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_whole _),
      View.canon_unit_zero (S := S512x1024) zeros2]
    simp only [View.readAt_eq_ld, View.ld_unit_zero (S := S512x1024) zeros2, View.ld_unit_zero (S := S1x1024) zeros2]
  iexists _; isplitr
  swap; · iexact H3
  ipureintro
  rw [View.read_writes_eq_canon _ _ _ (cover_whole _),
    View.canon_unit_zero (S := S512x1024) zeros2]
  simp only [View.readAt_eq_ld, View.ld_unit_zero (S := S512x1024) zeros2]

/-! ## The obligation at a grid point -/

/-- What the body is handed at point t: the invariant, what the core owes, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same invariant and debt, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the two input buffers hold the point's query row and document block, so the body on whole
    buffers applies at those contents; the invariant and the core's debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0 at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.Reg1.lean ====
/-
  Region 1 (the pairwise-score kernel, grid 8 x 8 over row blocks i and column blocks j of 1024): the scratch column
  carried across the points of one row block, the proof data, and the body's obligation at every point.
  At point t = 8 i + j the body reads block i of cn (window 0), block i of dn (window 1) and block j of dn (window 2);
  it resets the scratch column at j = 0, adds to it the row sums of cos_cd * (1 - cos_dd) with the diagonal entries
  replaced by zero, and at j = 7 copies the scratch into the output block (window 3, block i of the 8192 x 1 result).
  Windows 1 and 2 read the same array, so each holds half of its share.
-/
import proofs.«127008_j80152679678829_1_alg».proof.Proof.Gen.KernelIdeal.Launch
import proofs.«127008_j80152679678829_1_alg».proof.Proof.Gen.KernelIdeal.Skeleton
import proofs.«127008_j80152679678829_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the scratch column: the column `prev` plus the row sums of this point's block of
    off-diagonal contributions (the skeleton's payload at the point's blocks). -/
def stepAt (c : Dev nD) (t : Fin cfg1.N) (prev : Vec F S1024x1 .f32) : Vec F S1024x1 .f32 :=
  k1_pay2 (grid1.coords t) (iblk1 V c 0 t) (iblk1 V c 2 t) (iblk1 V c 1 t) (iblk1 V c 2 t) prev

/-- The scratch column after the points below `n`: reset to zero where a row block starts (n ≡ 0 mod 8), else the
    previous column; then the point's update. `accAt (n + 1)` is what point `n` leaves in the scratch. -/
def accAt (c : Dev nD) : ℕ → Vec F S1024x1 .f32
  | 0 => k1_pay1
  | n + 1 => if h : n < cfg1.N then stepAt V c ⟨n, h⟩ (if n % 8 = 0 then k1_pay1 else accAt c n) else accAt c n

/-- The scratch column, as a memref. -/
abbrev scM : Memref sig .tc .vmem S1024x1 .f32 := Memref.whole cc1_scratch0

/-- What the body never touches: the generator register at some state and the seven staging buffers of the first
    region, each whole at some contents. -/
def others (c : Dev nD) : sProp 𝕄 :=
  iprop((∃ r, prngReg c r)
    ∗ (∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region's invariant before point `t`: what the body never touches, and the scratch column, which holds
    `accAt t` unless a row block starts at `t` (then anything: the body resets it there before reading it). -/
def Φ1 (c : Dev nD) (t : Fin (cfg1.N + 1)) : sProp 𝕄 :=
  iprop(others (F := F) c
    ∗ (∃ X : Vec F S1024x1 .f32, ⌜t.val % 8 ≠ 0 → X = accAt V c t.val⌝ ∗ owns (c : Thread nD τ) scM fullShare X))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c (t.val + 1)
  Φ t := Φ1 V c t
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c (t.val + 1) := by dsimp only [dat1]
theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare.right := by dsimp only [dat1]
theorem q1_3 (c : Dev nD) : (dat1 V c).q 3 = fullShare := by dsimp only [dat1]

/-! ## The body's two conditions, in closed form over the grid -/

/-- The body resets the scratch column where the column block index is zero: -/
abbrev cond1 (i : grid1.Coords) : Prop :=
  (Scalar.cmpi .ne (Scalar.extui (Scalar.cmpi .eq (BitVec.ofNat 32 (i 1).val) 0#32)) 0#32) = 1#1
/-- at the points ≡ 0 (mod 8). -/
theorem hcond1 : ∀ t : Fin cfg1.N, cond1 (grid1.coords t) ↔ t.val % 8 = 0 :=
  (by decide +kernel : ∀ t : Fin grid1.N, cond1 (grid1.coords t) ↔ t.val % 8 = 0)
/-- It copies the scratch column into the output block where the column block index is seven: -/
abbrev cond2 (i : grid1.Coords) : Prop := k1_cond2 i = 1#1
/-- at the points ≡ 7 (mod 8). -/
theorem hcond2 : ∀ t : Fin cfg1.N, cond2 (grid1.coords t) ↔ t.val % 8 = 7 :=
  (by decide +kernel : ∀ t : Fin grid1.N, cond2 (grid1.coords t) ↔ t.val % 8 = 7)
/-- Where the copy is not made the output window is idle and its block is not written back; where it is made the
    window is live. -/
theorem idle3_of : ∀ t : Fin cfg1.N, ¬cond2 (grid1.coords t) → cfg1.idle 3 (grid1.coords t) = true := by decide +kernel
theorem noFlush3_of : ∀ t : Fin cfg1.N, ¬cond2 (grid1.coords t) → (cfg1.win 3).flush t = false := by decide +kernel
theorem live3_of : ∀ t : Fin cfg1.N, cond2 (grid1.coords t) → cfg1.idle 3 (grid1.coords t) = false := by decide +kernel

/-! ## The body on whole memrefs, in its three control cases -/

private theorem hz : (![0, 0] : Fin 2 → Nat) = fun _ => 0 := funext fun a => by fin_cases a <;> rfl

/-- A load of a whole buffer through the whole-shape rectangle reads its contents: a matrix block, -/
private theorem load_block (a : Memref sig .tc .vmem S1024x1024 .bf16) (h : a.IsWhole) (x : Vec F S1024x1024 .bf16) :
    View.readAt (Elt F) a.view (Rect.unit (s := S1024x1024) ![0, 0] S1024x1024.size inb_S1024x1024_S1024x1024_0_0).toLoadRect (h.unread x) = x := by
  rw [View.readAt_eq_ld, h.read_unread, View.ld_unit_zero (S := S1024x1024) hz]
/-- and a column. -/
private theorem load_col (a : Memref sig .tc .vmem S1024x1 .f32) (h : a.IsWhole) (x : Vec F S1024x1 .f32) :
    View.readAt (Elt F) a.view (Rect.unit (s := S1024x1) ![0, 0] S1024x1.size inb_S1024x1_S1024x1_0_0).toLoadRect (h.unread x) = x := by
  rw [View.readAt_eq_ld, h.read_unread, View.ld_unit_zero (S := S1024x1) hz]
/-- A store through the whole-shape rectangle, made last, covers the column. -/
private theorem cover_col (w : Vec F S1024x1 .f32) (L : List (View.Piece (Elt F) S1024x1 .f32)) (y : S1024x1.Idx) :
    ∃ p ∈ ((⟨Rect.unit (s := S1024x1) ![0, 0] S1024x1.size inb_S1024x1_S1024x1_0_0, w⟩ : View.Piece (Elt F) S1024x1 .f32) :: L), y ∈ p.1.set :=
  ⟨_, List.mem_cons.mpr (Or.inl rfl), View.mem_set_unit_zero (S := S1024x1) hz inb_S1024x1_S1024x1_0_0 y⟩

set_option maxHeartbeats 1000000 in
/-- Where a row block starts (the reset is made, the copy is not): whatever the scratch held, the body leaves in it the
    zero column plus the point's row sums; the three input blocks and the output buffer are as they were. -/
theorem kernel_first (c : Dev nD) (E : Set ℕ) (i : grid1.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1 .f32) (h6 : a6.IsWhole)
    (hc1 : cond1 i) (hc2 : ¬cond2 i) (x0 x1 x2 : Vec F S1024x1024 .bf16) (xo : Vec F S1024x1 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare xo ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare xo ∗ owns (c : Thread nD τ) a6 fullShare (k1_pay2 i x0 x2 x1 x2 k1_pay1)) -∗ K ⟨⟩))
      ⊢ wp frame (wpE (defs₀ (F := F)) Variants.none c none) E (cc1_kernel i a2 h2 a3 h3 a4 h4 a5 h5 a6 h6) K := by
  simp only [cc1_kernel_eq_skeleton]; unfold cc1_kernel_skel
  unfold owns
  iintro ⟨⟨%f0, %hf0, H0⟩, ⟨%f1, %hf1, H1⟩, ⟨%f2, %hf2, H2⟩, ⟨%f5, %hf5, H5⟩, ⟨%d, %f6, -, H6⟩, Hk⟩
  obtain rfl := h2.eq_unread hf0; obtain rfl := h3.eq_unread hf1; obtain rfl := h4.eq_unread hf2; obtain rfl := h5.eq_unread hf5
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H5]
  · iexists _; isplitr; · ipureintro; exact h5.read_unread _
    iexact H5
  iexists _; isplitr
  swap; · iexact H6
  ipureintro
  rw [View.read_writes_eq_canon _ _ _ (cover_col _ _), View.canon_cons_unit_zero (S := S1024x1) hz]
  sl_unfold_run_names
  rw [load_block a2 h2 x0, load_block a3 h3 x1, load_block a4 h4 x2, View.readCov_unit_zero (S := S1024x1) _ hz]

set_option maxHeartbeats 1000000 in
/-- Inside a row block (neither the reset nor the copy is made): the body adds the point's row sums to the column the
    scratch holds; the three input blocks and the output buffer are as they were. -/
theorem kernel_mid (c : Dev nD) (E : Set ℕ) (i : grid1.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1 .f32) (h6 : a6.IsWhole)
    (hc1 : ¬cond1 i) (hc2 : ¬cond2 i) (x0 x1 x2 : Vec F S1024x1024 .bf16) (xo xs : Vec F S1024x1 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare xo ∗ owns (c : Thread nD τ) a6 fullShare xs
        ∗ (iprop(owns (c : Thread nD τ) a2 fullShare x0 ∗ owns (c : Thread nD τ) a3 fullShare x1 ∗ owns (c : Thread nD τ) a4 fullShare x2
            ∗ owns (c : Thread nD τ) a5 fullShare xo ∗ owns (c : Thread nD τ) a6 fullShare (k1_pay2 i x0 x2 x1 x2 xs)) -∗ K ⟨⟩))
      ⊢ wp frame (wpE (defs₀ (F := F)) Variants.none c none) E (cc1_kernel i a2 h2 a3 h3 a4 h4 a5 h5 a6 h6) K := by
  simp only [cc1_kernel_eq_skeleton]; unfold cc1_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := h2.eq_unread hf0; obtain rfl := h3.eq_unread hf1; obtain rfl := h4.eq_unread hf2; obtain rfl := h5.eq_unread hf5
  obtain rfl := h6.eq_unread hf6
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H5]
  · iexists _; isplitr; · ipureintro; exact h5.read_unread _
    iexact H5
  iexists _; isplitr
  swap; · iexact H6
  ipureintro
  sl_unfold_run_names
  rw [View.read_writes_eq_canon _ _ _ (cover_col _ _), View.canon_cons_unit_zero (S := S1024x1) hz]
  rw [load_block a2 h2 x0, load_block a3 h3 x1, load_block a4 h4 x2, load_col a6 h6 xs]

set_option maxHeartbeats 1000000 in
/-- Where a row block ends (the copy is made, the reset is not): the body adds the point's row sums to the column the
    scratch holds and copies the sum into the output buffer, whatever that held; the three input blocks are as they were. -/
theorem kernel_last (c : Dev nD) (E : Set ℕ) (i : grid1.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1 .f32) (h5 : a5.IsWhole)
    (a6 : Memref sig .tc .vmem S1024x1 .f32) (h6 : a6.IsWhole)
    (hc1 : ¬cond1 i) (hc2 : cond2 i) (x0 x1 x2 : Vec F S1024x1024 .bf16) (xs : Vec F S1024x1 .f32) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare xs
        ∗ (iprop(owns (c : Thread nD τ) a2 fullShare x0 ∗ owns (c : Thread nD τ) a3 fullShare x1 ∗ owns (c : Thread nD τ) a4 fullShare x2
            ∗ owns (c : Thread nD τ) a5 fullShare (k1_pay2 i x0 x2 x1 x2 xs) ∗ owns (c : Thread nD τ) a6 fullShare (k1_pay2 i x0 x2 x1 x2 xs)) -∗ K ⟨⟩))
      ⊢ wp frame (wpE (defs₀ (F := F)) Variants.none c none) E (cc1_kernel i a2 h2 a3 h3 a4 h4 a5 h5 a6 h6) K := by
  simp only [cc1_kernel_eq_skeleton]; unfold cc1_kernel_skel
  unfold owns
  iintro ⟨⟨%f0, %hf0, H0⟩, ⟨%f1, %hf1, H1⟩, ⟨%f2, %hf2, H2⟩, ⟨%d, %f5, -, H5⟩, ⟨%f6, %hf6, H6⟩, Hk⟩
  obtain rfl := h2.eq_unread hf0; obtain rfl := h3.eq_unread hf1; obtain rfl := h4.eq_unread hf2
  obtain rfl := h6.eq_unread hf6
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H5]
  · iexists _; isplitr
    swap; · iexact H5
    ipureintro
    sl_unfold_run_names
    rw [View.read_writes_eq_canon _ _ _ (cover_col _ _), View.canon_cons_unit_zero (S := S1024x1) hz,
      View.readCov_unit_zero (S := S1024x1) _ hz]
    rw [load_block a2 h2 x0, load_block a3 h3 x1, load_block a4 h4 x2, load_col a6 h6 xs]
  iexists _; isplitr
  swap; · iexact H6
  ipureintro
  sl_unfold_run_names
  rw [View.read_writes_eq_canon _ _ _ (cover_col _ _), View.canon_cons_unit_zero (S := S1024x1) hz]
  rw [load_block a2 h2 x0, load_block a3 h3 x1, load_block a4 h4 x2, load_col a6 h6 xs]

/-! ## Each input window's buffer holds its block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The scratch column after point `t`: the point's update of the zero column where a row block starts, of the column
    before the point elsewhere. -/
theorem accAt_succ (c : Dev nD) (t : Fin cfg1.N) :
    accAt V c (t.val + 1) = stepAt V c t (if t.val % 8 = 0 then k1_pay1 else accAt V c t.val) := by
  rw [accAt, dif_pos t.isLt]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point. The input buffers hold their blocks; the point's residue mod 8 says which control case it is
    in. Where a row block starts the scratch is handed over at anything and comes back at the update of the zero column;
    elsewhere it is handed over at the column before the point and comes back at its update: in both cases the column
    after the point. The output buffer is handed back untouched except where a row block ends, and there it holds the
    column after the point. What the body never touches, and the core owing nothing, pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Φ1 V c t.succ from rfl, show (dat1 V c).Φ t.castSucc = Φ1 V c t.castSucc from rfl,
    show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  unfold Φ1
  rw [Fin.coe_castSucc, Fin.val_succ, accAt_succ V c t]
  unfold stepAt
  have hN : t.val < 64 := lt_of_lt_of_eq t.isLt N_1
  by_cases h0 : t.val % 8 = 0
  · have hc1 : cond1 (grid1.coords t) := (hcond1 t).mpr h0
    have hc2 : ¬cond2 (grid1.coords t) := fun h => by have := (hcond2 t).mp h; omega
    rw [Dat.leavesExact_idle (dat1 V c) 3 t (idle3_of t hc2) (noFlush3_of t hc2), if_pos h0]
    iintro ⟨⟨Hr, ⟨%X, -, HS⟩⟩, Ho, ⟨%d0, H0⟩, ⟨%d1, H1⟩, ⟨%d2, H2⟩, ⟨%d3, H3⟩⟩
    iapply (kernel_first c Set.univ (grid1.coords t) _ _ _ _ _ _ _ _ _ _ hc1 hc2
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [Hr HS]
    · isplitl [Hr]; · iexact Hr
      iexists _; isplitr
      swap; · iexact HS
      ipureintro; exact fun _ => rfl
    isplitl [Ho]; · iexact Ho
    isplitl [H0]; · iexact H0
    isplitl [H1]; · iexact H1
    isplitl [H2]; · iexact H2
    iexists d3; iexact H3
  · have hc1 : ¬cond1 (grid1.coords t) := fun h => h0 ((hcond1 t).mp h)
    rw [if_neg h0]
    by_cases h7 : t.val % 8 = 7
    · have hc2 : cond2 (grid1.coords t) := (hcond2 t).mpr h7
      rw [show (dat1 V c).leavesExact 3 t = owns (c : Thread nD τ) (st1_3 t) fullShare ((dat1 V c).after 3 t) from by
        unfold Dat.leavesExact; rw [live3_of t hc2], after1_3, accAt_succ V c t, if_neg h0]
      unfold stepAt
      iintro ⟨⟨Hr, ⟨%X, %hX, HS⟩⟩, Ho, ⟨%d0, H0⟩, ⟨%d1, H1⟩, ⟨%d2, H2⟩, ⟨%d3, H3⟩⟩
      obtain rfl := hX h0
      iapply (kernel_last c Set.univ (grid1.coords t) _ _ _ _ _ _ _ _ _ _ hc1 hc2
        (iblk1 V c 0 t) (iblk1 V c 1 t) (iblk1 V c 2 t) (accAt V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS]
      · isplitl [Hr]; · iexact Hr
        iexists _; isplitr
        swap; · iexact HS
        ipureintro; exact fun _ => rfl
      isplitl [Ho]; · iexact Ho
      isplitl [H0]; · iexact H0
      isplitl [H1]; · iexact H1
      isplitl [H2]; · iexact H2
      iexact H3
    · have hc2 : ¬cond2 (grid1.coords t) := fun h => h7 ((hcond2 t).mp h)
      rw [Dat.leavesExact_idle (dat1 V c) 3 t (idle3_of t hc2) (noFlush3_of t hc2)]
      iintro ⟨⟨Hr, ⟨%X, %hX, HS⟩⟩, Ho, ⟨%d0, H0⟩, ⟨%d1, H1⟩, ⟨%d2, H2⟩, ⟨%d3, H3⟩⟩
      obtain rfl := hX h0
      iapply (kernel_mid c Set.univ (grid1.coords t) _ _ _ _ _ _ _ _ _ _ hc1 hc2
        (iblk1 V c 0 t) (iblk1 V c 1 t) (iblk1 V c 2 t) ((dat1 V c).before 3 t d3) (accAt V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS]
      · isplitl [Hr]; · iexact Hr
        iexists _; isplitr
        swap; · iexact HS
        ipureintro; exact fun _ => rfl
      isplitl [Ho]; · iexact Ho
      isplitl [H0]; · iexact H0
      isplitl [H1]; · iexact H1
      isplitl [H2]; · iexact H2
      iexists d3; iexact H3

/-- The body obligation of region 1 at every grid point. -/
theorem body_obligation1 (c : Dev nD) : BodyObligation (dat1 (F := F) V c) (defs₀ (F := F)) Variants.none () Set.univ := fun t => by
  rw [bigSep_W1, bigSep_W1]
  exact sound_body1 V c t

/-- The invariant at the first point, from the generator register and the scoped buffers region 1 does not stage. -/
theorem Φ1_in (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [scopedRest1_eq]
  show _ ⊢ Φ1 V c 0
  unfold Φ1 others
  simp only [scM, owns_whole]
  iintro ⟨Hp, H0, H1, H2, H3, H4, H5, H6, ⟨%f, H7⟩⟩
  isplitl [Hp H0 H1 H2 H3 H4 H5 H6]
  · isplitl [Hp]; · iexact Hp
    isplitl [H0]; · iexact H0
    isplitl [H1]; · iexact H1
    isplitl [H2]; · iexact H2
    isplitl [H3]; · iexact H3
    isplitl [H4]; · iexact H4
    isplitl [H5]; · iexact H5
    iexact H6
  iexists f
  isplitr; · ipureintro; exact fun h => absurd rfl h
  iexact H7

/-- The invariant at the last point gives both back. -/
theorem Φ1_out (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [scopedRest1_eq]
  show Φ1 V c (Fin.last cfg1.N) ⊢ _
  unfold Φ1 others
  simp only [scM, owns_whole]
  iintro ⟨⟨Hp, H0, H1, H2, H3, H4, H5, H6⟩, ⟨%X, -, H7⟩⟩
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X
  iexact H7

end Cert.KernelIdeal.R1

end
-- ==== Proof.KI.LaunchDefs.lean ====
/-
  The run of the program as a whole: what the two regions leave in the arrays they write, the proof data of both
  pipelines at their entry contents, and the thread state that rides beside the buffers between items.
  Region 0 leaves cn and dn in main_v1_0 and main_v1_1 (the fold of its write-backs); region 1, entered with those,
  leaves the score column in main_v2.
-/
import proofs.«127008_j80152679678829_1_alg».proof.Proof.KI.Reg0
import proofs.«127008_j80152679678829_1_alg».proof.Proof.KI.Reg1
import proofs.«127008_j80152679678829_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.R0 Cert.KernelIdeal.R1
open Idealize.ShloMosaic.Pipeline (RegionSeg)

variable (m : (ℓ : Loc nD τ sig) → Buf (Elt F) ℓ)

/-- The buffers region 0 is entered with: the launch memory after the reshape of the query. -/
abbrev E1 : (c : Dev nD) → (b : Ref sig .tc) → Buf (Elt F) ((c : Thread nD τ).loc b) := fun c b => Gen.V1 m c b

/-- What region 0 leaves: cn in `main_v1_0`, dn in `main_v1_1` (every other reference: the launch memory, unread). -/
def outsA : Gen.Outs (F := F) := fun _ r c =>
  if h : r = main_v1_0 then h ▸ (dat0 (E1 m) c).arrAt 2 cfg0.N
  else if h : r = main_v1_1 then h ▸ (dat0 (E1 m) c).arrAt 3 cfg0.N
  else m ((c : Thread nD τ).loc r)

/-- The buffers region 1 is entered with. -/
abbrev E2 : (c : Dev nD) → (b : Ref sig .tc) → Buf (Elt F) ((c : Thread nD τ).loc b) := fun c b => Gen.V2 m (outsA m) c b

/-- What both regions leave: as `outsA`, and the score column in `main_v2`. -/
def outs : Gen.Outs (F := F) := fun j r c =>
  if h : r = main_v2 then h ▸ (dat1 (E2 m) c).arrAt 3 cfg1.N
  else outsA m j r c

theorem outsA_v1_0 (j : ℕ) (c : Dev nD) : outsA m j main_v1_0 c = (dat0 (E1 m) c).arrAt 2 cfg0.N := by
  unfold outsA; rw [dif_pos rfl]
theorem outsA_v1_1 (j : ℕ) (c : Dev nD) : outsA m j main_v1_1 c = (dat0 (E1 m) c).arrAt 3 cfg0.N := by
  unfold outsA; rw [dif_neg (by decide), dif_pos rfl]
theorem outs_v1_0 (j : ℕ) (c : Dev nD) : outs m j main_v1_0 c = (dat0 (E1 m) c).arrAt 2 cfg0.N := by
  unfold outs; rw [dif_neg (by decide)]; exact outsA_v1_0 m j c
theorem outs_v1_1 (j : ℕ) (c : Dev nD) : outs m j main_v1_1 c = (dat0 (E1 m) c).arrAt 3 cfg0.N := by
  unfold outs; rw [dif_neg (by decide)]; exact outsA_v1_1 m j c
theorem outs_v2 (j : ℕ) (c : Dev nD) : outs m j main_v2 c = (dat1 (E2 m) c).arrAt 3 cfg1.N := by
  unfold outs; rw [dif_pos rfl]

/-- Region 1's entry contents do not depend on what region 1 itself leaves. -/
theorem V2_outs (c : Dev nD) : Gen.V2 m (outs m) c = Gen.V2 m (outsA m) c := by
  unfold Gen.V2; rw [outs_v1_0, outs_v1_1, outsA_v1_0, outsA_v1_1]

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The rest state between items, the same at every boundary. -/
abbrev E : Fin 3 → Dev nD → sProp 𝕄 := fun _ c => R (F := F) c

end Cert.KernelIdeal.Run

end
-- ==== Proof.KI.Seg0.lean ====
/-
  Region 0 as a segment of the run: entered with every unscoped buffer at the contents after the query's reshape,
  left with cn and dn written. Its four arrays are split out of the unscoped buffers at entry and put back at exit.
-/
import proofs.«127008_j80152679678829_1_alg».proof.Proof.KI.LaunchDefs
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Cert.KernelIdeal.R0 Cert.KernelIdeal.R1
open Idealize.ShloMosaic.Pipeline (RegionSeg)

variable (m : (ℓ : Loc nD τ sig) → Buf (Elt F) ℓ)

/-- The query's window (an input) is never written: its array at the end is the entry array, which the exit valuation
    keeps (the region may change only cn and dn). -/
theorem hF0_0 (c : Dev nD) :
    (dat0 (E1 m) c).arrAt (0 : Fin cfg0.W) cfg0.N = Gen.V2 m (outs m) c (Pipeline.arrRef spec0 (0 : Fin cfg0.W)) := by
  rw [Pipeline.Dat.arrAt_in (dat0 (E1 m) c) (0 : Fin cfg0.W) rfl, A_eq0]
  exact (Gen.V2_of m (outs m) c (Pipeline.arrRef spec0 (0 : Fin cfg0.W)) (by decide)).symm

/-- The documents' window (an input): as for the query. -/
theorem hF0_1 (c : Dev nD) :
    (dat0 (E1 m) c).arrAt (1 : Fin cfg0.W) cfg0.N = Gen.V2 m (outs m) c (Pipeline.arrRef spec0 (1 : Fin cfg0.W)) := by
  rw [Pipeline.Dat.arrAt_in (dat0 (E1 m) c) (1 : Fin cfg0.W) rfl, A_eq0]
  exact (Gen.V2_of m (outs m) c (Pipeline.arrRef spec0 (1 : Fin cfg0.W)) (by decide)).symm

/-- cn's window: the exit valuation's entry at cn is, by the choice of what the region leaves, the fold of the
    write-backs of window 2 (the later update, at dn, is at another reference). -/
theorem hF0_2 (c : Dev nD) :
    (dat0 (E1 m) c).arrAt (2 : Fin cfg0.W) cfg0.N = Gen.V2 m (outs m) c (Pipeline.arrRef spec0 (2 : Fin cfg0.W)) := by
  show _ = Function.update (Function.update (Gen.V1 m c) main_v1_0 (outs m 2 main_v1_0 c)) main_v1_1 (outs m 2 main_v1_1 c) main_v1_0
  rw [Function.update_of_ne (StableHlo.devRef_ne_of_ne (by decide)), Function.update_self, outs_v1_0]

/-- dn's window: the exit valuation's entry at dn is the fold of the write-backs of window 3. -/
theorem hF0_3 (c : Dev nD) :
    (dat0 (E1 m) c).arrAt (3 : Fin cfg0.W) cfg0.N = Gen.V2 m (outs m) c (Pipeline.arrRef spec0 (3 : Fin cfg0.W)) := by
  show _ = Function.update (Function.update (Gen.V1 m c) main_v1_0 (outs m 2 main_v1_0 c)) main_v1_1 (outs m 2 main_v1_1 c) main_v1_1
  rw [Function.update_self, outs_v1_1]

/-- The array of each window of region 0 after the last point is what the exit valuation holds there. -/
theorem hF0 (c : Dev nD) (w : Fin cfg0.W) :
    (dat0 (E1 m) c).arrAt w cfg0.N = Gen.V2 m (outs m) c (Pipeline.arrRef spec0 w) :=
  match w with
  | ⟨0, _⟩ => hF0_0 m c
  | ⟨1, _⟩ => hF0_1 m c
  | ⟨2, _⟩ => hF0_2 m c
  | ⟨3, _⟩ => hF0_3 m c

/-- Off region 0's four arrays the exit valuation is the entry valuation: the two references it differs at are the
    arrays of windows 2 and 3. -/
theorem hrest0 (c : Dev nD) :
    ∀ b, b ∉ Finset.univ.image (Pipeline.arrRef spec0) → Gen.V2 m (outs m) c b = Gen.V1 m c b := fun b hb =>
  Gen.V2_of m (outs m) c b (by
    intro hmem
    simp only [List.mem_cons, List.not_mem_nil, or_false] at hmem
    rcases hmem with rfl | rfl
    · exact hb (Finset.mem_image.mpr ⟨2, Finset.mem_univ _, rfl⟩)
    · exact hb (Finset.mem_image.mpr ⟨3, Finset.mem_univ _, rfl⟩))

set_option backward.isDefEq.respectTransparency.types false in
/-- Region 0 over the thread state: entered with every unscoped buffer at the contents after the reshape, left with
    them at the same contents but for cn and dn, which hold the folds of the write-backs. The core's random-number register rides
    into the pipeline's invariant and out again; nothing is owed at any point; the kernel has no semaphore of its own. -/
def reg0 : RegionSeg (pcfgs (F := F)) (Gen.adm (F := F)) (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    -- the unscoped buffers at the entry contents are the four arrays at their entry contents and the rest
    have hcut := Pipeline.arrays_of_unscopedBufs (p := 0) (pcfgs (F := F)) (Gen.adm (F := F)) (pdats m) Gen.launch0.win
      Gen.launch0.arr_whole c ((pdats m 0 c).share_full fun _ => rfl) (E1 m c) fun _ => rfl
    rw [Pipeline.unscopedBufs_held] at hcut
    rw [Pipeline.ownSems0_none]
    iintro ⟨⟨Hbufs, Hreg, Howes⟩, -, -⟩
    ihave Hcut := hcut $$ Hbufs
    icases Hcut with ⟨Harr, Hrest⟩
    imodintro
    isplitl [Harr]
    · iexact Harr
    isplitr
    · -- no prefetched table: an empty product
      unfold Pipeline.prefHeld
      rw [show (Finset.univ : Finset (Fin 0)) = ∅ from rfl, BI.bigSep_empty]
      iempintro
    isplitl [Howes]
    · -- nothing owed at the first tallies
      unfold Pipeline.Dat.owesAt Pipeline.owesWithin
      icases Howes with ⟨%W, Howes⟩
      iexists W
      isplitr
      · ipureintro; exact fun _ _ => Or.inl trivial
      iexact Howes
    isplitl [Hreg]
    · iexact Hreg
    iexact Hrest
  hin c := by
    rw [show (pdats m 0 c).Φ 0 = Pipeline.ΦA spec0 c from rfl]
    unfold Pipeline.ΦA
    iintro ⟨Hreg, -, Hsc⟩
    isplitl [Hsc]
    · iexact Hsc
    iexact Hreg
  hout c := by
    rw [Pipeline.ownSems0_none, show (pdats m 0 c).Φ (Fin.last _) = Pipeline.ΦA spec0 c from rfl]
    unfold Pipeline.ΦA
    iintro ⟨Hsc, Hreg⟩
    isplitl [Hreg]
    · iexact Hreg
    isplitr
    · iempintro
    iexact Hsc
  hexit c := by
    -- the four arrays at their final contents and the rest at the entry contents are the unscoped buffers at the
    -- exit valuation, which has the arrays at those contents and agrees with the entry valuation elsewhere
    have hglue := Pipeline.unscopedBufs_of_arrays (p := 0) (pcfgs (F := F)) (Gen.adm (F := F)) (Ix := Unit) (Name := ℕ)
      (U := UR sig nD τ) (Lvl := ℕ) Gen.launch0.win Gen.launch0.arr_whole c (pdats m)
      ((pdats m 0 c).share_full fun _ => rfl) (E1 m c) (fun b => Gen.V2 m (outs m) c b)
      ((pdats m 0 c).arrAt · cfg0.N) (hF0 m c) (hrest0 m c)
    rw [Pipeline.unscopedBufs_held] at hglue
    iintro ⟨Harr, Howes, Hreg, Hrest⟩
    imodintro
    isplitl [Harr Hrest]
    · iapply hglue
      isplitl [Harr] <;> iassumption
    isplitl [Hreg]
    · iexact Hreg
    unfold Pipeline.Dat.owesAt Pipeline.owesWithin
    icases Howes with ⟨%W, -, Howes⟩
    iexists W
    iexact Howes

/-- The thread state before region 0 is the region's entry state: the rest at boundary 0 is the register and the
    empty debt. -/
theorem hpre0 (c : Dev nD) :
    iprop(StableHlo.held (c : Thread nD τ) (Pipeline.ucRefs τ sig) (Gen.V1 m c) ∗ E (F := F) 0 c) ⊢ (reg0 m).pre c :=
  .rfl

/-- The region's exit state is the thread state after region 0. -/
theorem hpost0 (c : Dev nD) :
    (reg0 m).post c ⊢ iprop(StableHlo.held (c : Thread nD τ) (Pipeline.ucRefs τ sig) (Gen.V2 m (outs m) c) ∗ E (F := F) 1 c) :=
  .rfl

end Cert.KernelIdeal.Run

end
-- ==== Proof.KI.Seg1.lean ====
/-
  Region 1 as a segment of the run: entered with cn and dn in place, left with the score column written.
  Two of its windows read dn, so at entry dn's buffer is dealt to them as two half shares and at exit the halves are joined.
-/
import proofs.«127008_j80152679678829_1_alg».proof.Proof.KI.LaunchDefs

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Cert.KernelIdeal.R0 Cert.KernelIdeal.R1
open Idealize.ShloMosaic.Pipeline (RegionSeg)

variable (m : (ℓ : Loc nD τ sig) → Buf (Elt F) ℓ)

/-- The distinct buffers behind region 1's four windows: cn's, dn's (read through two windows) and the score column's. -/
theorem arrRefs1 : (Finset.univ : Finset (Fin 4)).image (Pipeline.arrRef spec1) = ([main_v1_0, main_v1_1, main_v2] : List (Ref sig .tc)).toFinset := by
  decide

/-- Those three buffers, each whole at the full share, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1_0) ↦{fullShare} V main_v1_0) ∗ (((c : Thread nD τ).loc main_v1_1) ↦{fullShare} V main_v1_1)
          ∗ (((c : Thread nD τ).loc main_v2) ↦{fullShare} V main_v2)) := by
  unfold Pipeline.arrBufs
  exact bigSep_eq_bigSepL_of_eq _ arrRefs1 (by decide) _

section Shares

variable (V : (c : Dev nD) → (b : Ref sig .tc) → Buf (Elt F) ((c : Thread nD τ).loc b))

/-- The share each window holds of its array: cn's reader and the writer of the score column the whole of theirs,
    dn's two readers one half each. -/
theorem share1_0 (c : Dev nD) : (dat1 V c).share 0 = fullShare := by
  unfold Dat.share; rw [if_neg (by decide), q1_0]
theorem share1_1 (c : Dev nD) : (dat1 V c).share 1 = fullShare.left := by
  unfold Dat.share; rw [if_neg (by decide), q1_1]
theorem share1_2 (c : Dev nD) : (dat1 V c).share 2 = fullShare.right := by
  unfold Dat.share; rw [if_neg (by decide), q1_2]
theorem share1_3 (c : Dev nD) : (dat1 V c).share 3 = fullShare := by
  unfold Dat.share; rw [if_pos (by decide)]

/-- The four windows' arrays one by one: whole buffers, so each is held at every element. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1_0) ↦{fullShare} G 0) ∗ (((c : Thread nD τ).loc main_v1_1) ↦{fullShare.left} G 1)
          ∗ (((c : Thread nD τ).loc main_v1_1) ↦{fullShare.right} G 2) ∗ (((c : Thread nD τ).loc main_v2) ↦{fullShare} G 3)) := by
  unfold Dat.arrays
  rw [Gen.bigSep_W1, (arr_whole1 0).set_eq_univ, (arr_whole1 1).set_eq_univ, (arr_whole1 3).set_eq_univ,
    share1_0, share1_1, share1_2, share1_3]

end Shares

section Deal

variable (V : (c : Dev nD) → (b : Ref sig .tc) → Buf (Elt F) ((c : Thread nD τ).loc b))

/-- ENTRY, the arrays. The three buffers at the entry contents are the four windows' arrays at their entry contents:
    cn's buffer goes to window 0 and the score column's to window 3 whole; dn's buffer, read through windows 1 and 2,
    is dealt as the two halves of its full share, both at dn's contents. -/
theorem arrays_of_arrBufs1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hcn, Hdn, Hcol⟩
  ihave Hdn := (pointsTo_share (PosShare.mem_left_op_right fullShare)).1 $$ Hdn
  icases Hdn with ⟨Hl, Hr⟩
  isplitl [Hcn]
  · iexact Hcn
  isplitl [Hl]
  · iexact Hl
  isplitl [Hr]
  · iexact Hr
  iexact Hcol

/-- EXIT, the arrays. The four windows' arrays after the last point are the three buffers at any contents that keep cn
    and dn as entered and hold the fold of window 3's write-backs in the score column: the input windows' arrays are
    never written, so both halves of dn's share still hold dn and join to the full share. -/
theorem arrBufs_of_arrays1 (c : Dev nD) (V' : (b : Ref sig .tc) → Buf (Elt F) ((c : Thread nD τ).loc b))
    (hcn : V' main_v1_0 = V c main_v1_0) (hdn : V' main_v1_1 = V c main_v1_1)
    (hcol : V' main_v2 = (dat1 V c).arrAt 3 cfg1.N) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, arrays1_eq, Pipeline.Dat.arrAt_in (dat1 V c) 0 rfl, Pipeline.Dat.arrAt_in (dat1 V c) 1 rfl,
    Pipeline.Dat.arrAt_in (dat1 V c) 2 rfl, A_eq1, A_eq1, A_eq1, hcn, hdn, hcol]
  iintro ⟨Hcn, Hl, Hr, Hcol⟩
  isplitl [Hcn]
  · iexact Hcn
  isplitl [Hl Hr]
  · iapply (pointsTo_share (PosShare.mem_left_op_right fullShare)).2
    isplitl [Hl]
    · iexact Hl
    iexact Hr
  iexact Hcol

end Deal

/-! ## The exit valuation against the entry valuation -/

/-- cn is as region 1 was entered with it: the region may change only the score column. -/
theorem V3_cn (c : Dev nD) : Gen.V3 m (outs m) c main_v1_0 = E2 m c main_v1_0 := by
  rw [Gen.V3_of m (outs m) c main_v1_0 (by decide), V2_outs]

/-- dn likewise. -/
theorem V3_dn (c : Dev nD) : Gen.V3 m (outs m) c main_v1_1 = E2 m c main_v1_1 := by
  rw [Gen.V3_of m (outs m) c main_v1_1 (by decide), V2_outs]

/-- The score column holds what region 1 leaves there, by the choice of that: the fold of window 3's write-backs. -/
theorem V3_col (c : Dev nD) : Gen.V3 m (outs m) c main_v2 = (dat1 (E2 m) c).arrAt 3 cfg1.N := by
  show Function.update (Gen.V2 m (outs m) c) main_v2 (outs m 3 main_v2 c) main_v2 = _
  rw [Function.update_self, outs_v2]

/-- Off the three buffers the exit valuation is the entry valuation: it differs from it at the score column alone. -/
theorem unscopedRest1_exit (c : Dev nD) :
    (Pipeline.unscopedRest (Ix := Unit) (Name := ℕ) (U := UR sig nD τ) (Lvl := ℕ) spec1 c (E2 m c) : sProp 𝕄)
      = Pipeline.unscopedRest spec1 c (fun b => Gen.V3 m (outs m) c b) := by
  unfold Pipeline.unscopedRest
  refine bigSep_congr fun b hb => ?_
  have hb' : b ∉ ([main_v2] : List (Ref sig .tc)) := fun hmem => by
    rw [List.mem_singleton] at hmem
    exact (Finset.mem_sdiff.mp hb).2 (Finset.mem_image.mpr ⟨3, Finset.mem_univ _, hmem.symm⟩)
  have h : Gen.V3 m (outs m) c b = E2 m c b := by rw [Gen.V3_of m (outs m) c b hb', V2_outs]
  exact congrArg (fun f => (((c : Thread nD τ).loc b) ↦{fullShare} f : sProp 𝕄)) h.symm

/-! ## The unscoped buffers around the region -/

/-- ENTRY: every unscoped buffer at the entry valuation is the four arrays at their entry contents and the buffers
    no window reads or writes. -/
theorem entry1 (c : Dev nD) :
    StableHlo.held (c : Thread nD τ) (Pipeline.ucRefs τ sig) (Gen.V2 m (outs m) c)
      ⊢ (iprop((dat1 (E2 m) c).arrays ((dat1 (E2 m) c).arrAt · 0)
          ∗ Pipeline.unscopedRest (Ix := Unit) (Name := ℕ) (U := UR sig nD τ) (Lvl := ℕ) spec1 c (E2 m c)) : sProp 𝕄) := by
  rw [V2_outs, ← Pipeline.unscopedBufs_held (Ix := Unit) (Name := ℕ) (U := UR sig nD τ) (Lvl := ℕ) c (Gen.V2 m (outsA m) c),
    Pipeline.unscopedBufs_split₀ cfgs 1 winFacts₀1.arr_unscoped c]
  exact sep_mono (arrays_of_arrBufs1 (E2 m) c) .rfl

/-- EXIT: the four arrays after the last point and the untouched buffers are every unscoped buffer at the exit
    valuation. -/
theorem exit1 (c : Dev nD) :
    (iprop((dat1 (E2 m) c).arrays ((dat1 (E2 m) c).arrAt · cfg1.N)
        ∗ Pipeline.unscopedRest (Ix := Unit) (Name := ℕ) (U := UR sig nD τ) (Lvl := ℕ) spec1 c (E2 m c)) : sProp 𝕄)
      ⊢ StableHlo.held (c : Thread nD τ) (Pipeline.ucRefs τ sig) (Gen.V3 m (outs m) c) := by
  rw [← Pipeline.unscopedBufs_held (Ix := Unit) (Name := ℕ) (U := UR sig nD τ) (Lvl := ℕ) c (Gen.V3 m (outs m) c),
    Pipeline.unscopedBufs_split₀ cfgs 1 winFacts₀1.arr_unscoped c, unscopedRest1_exit]
  exact sep_mono (arrBufs_of_arrays1 (E2 m) c _ (V3_cn m c) (V3_dn m c) (V3_col m c)) .rfl

/-! ## The region as a segment -/

set_option backward.isDefEq.respectTransparency.types false in
/-- Region 1 over the thread state: entered with every unscoped buffer at the contents region 0 left (cn and dn in
    place), left with them at the same contents but for the score column, which holds the fold of window 3's
    write-backs. dn's buffer is read through two windows, so it enters the pipeline as two half shares and comes back
    whole. The core's random-number register rides into the pipeline's invariant and out again; nothing is owed at any
    point; the kernel has no semaphore of its own. -/
def reg1 : RegionSeg (pcfgs (F := F)) (Gen.adm (F := F)) (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hbufs, Hreg, Howes⟩, -, -⟩
    ihave Hcut := entry1 m c $$ Hbufs
    icases Hcut with ⟨Harr, Hrest⟩
    imodintro
    isplitl [Harr]
    · iexact Harr
    isplitr
    · -- the kernel has no prefetched table: the product over none of them
      unfold Pipeline.prefHeld
      rw [show (Finset.univ : Finset (Fin 0)) = ∅ from rfl, BI.bigSep_empty]
      iempintro
    isplitl [Howes]
    · -- the zero tallies, the recorded pairs under the bound that allows every pair
      unfold Pipeline.Dat.owesAt Pipeline.owesWithin
      icases Howes with ⟨%W, Howes⟩
      iexists W
      isplitr
      · ipureintro
        exact fun _ _ => Or.inl (Set.mem_univ _)
      iexact Howes
    isplitl [Hreg]
    · iexact Hreg
    iexact Hrest
  hin c := by
    -- pipeline 1's proof data are region 1's, at the entry contents
    refine BIBase.Entails.trans ?_ (Φ1_in (E2 m) c)
    iintro ⟨Hreg, -, Hsc⟩
    isplitl [Hreg]
    · iexact Hreg
    iexact Hsc
  hout c := by
    rw [Pipeline.ownSems0_none]
    refine BIBase.Entails.trans (Φ1_out (E2 m) c) ?_
    iintro ⟨Hreg, Hsc⟩
    isplitl [Hreg]
    · iexact Hreg
    isplitr
    · iempintro
    iexact Hsc
  hexit c := by
    iintro ⟨Harr, Howes, Hreg, Hrest⟩
    imodintro
    isplitl [Harr Hrest]
    · iapply exit1 m c
      isplitl [Harr]
      · iexact Harr
      iexact Hrest
    isplitl [Hreg]
    · iexact Hreg
    unfold Pipeline.Dat.owesAt Pipeline.owesWithin
    icases Howes with ⟨%W, -, Howes⟩
    iexists W
    iexact Howes

/-- The thread state before region 1 is the region's entry state: the rest at boundary 1 is the register and the
    empty debt. -/
theorem hpre1 (c : Dev nD) :
    iprop(StableHlo.held (c : Thread nD τ) (Pipeline.ucRefs τ sig) (Gen.V2 m (outs m) c) ∗ E (F := F) 1 c) ⊢ (reg1 m).pre c :=
  .rfl

/-- The region's exit state is the thread state after region 1. -/
theorem hpost1 (c : Dev nD) :
    (reg1 m).post c ⊢ iprop(StableHlo.held (c : Thread nD τ) (Pipeline.ucRefs τ sig) (Gen.V3 m (outs m) c) ∗ E (F := F) 2 c) :=
  .rfl

end Cert.KernelIdeal.Run

end
-- ==== Proof.KI.RunMain.lean ====
/-
  The whole run: every weakly fair execution of the program terminates, the result buffer holds the fold of the host
  operations over what the two regions leave, and the three arguments end as launched.

  The program is a list of nine items: the reshape of the query, the two kernel regions, and six stretches of host
  operations. Between two items a core holds every unscoped buffer whole at the contents the fold has reached
  (V0 at launch, ..., V9 at the end) beside its generator register at some state and nothing owed. The launch deals
  each core exactly that at V0; each region's record carries it across the region; each host stretch carries it by
  running its operations over the valuation. At the end the buffers are read against the final memory, so every
  unscoped buffer of the final memory is V9's: the result buffer is V9 at the result, and an argument, which no item
  writes, is still the launch memory's.
-/
import proofs.«127008_j80152679678829_1_alg».proof.Proof.KI.Seg0
import proofs.«127008_j80152679678829_1_alg».proof.Proof.KI.Seg1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Cert.KernelIdeal.R0 Cert.KernelIdeal.R1
open Idealize.ShloMosaic.Pipeline (RegionSeg)

variable (m : (ℓ : Loc nD τ sig) → Buf (Elt F) ℓ)

/-- The nine items of the program on a core. -/
abbrev items (c : Dev nD) : List (Pipeline.Seg (pcfgs (F := F)) (Gen.adm (F := F)) (pdats m) () defs₀ 𝒱₀ L lv) :=
  Gen.segs m (outs m) 𝒱₀ L lv (E (F := F)) () (pdats m) (reg0 m) (reg1 m) c

/-- The rest state is the generator register beside nothing owed, so in particular nothing is owed. -/
theorem rest_owes_nothing (j : Fin 3) (c : Dev nD) :
    E (F := F) j c ⊢ (iprop(∃ W, owes (c : Thread nD τ) (0 : CellTallies nD τ sig Unit) W) : sProp 𝕄) := by
  iintro ⟨-, HO⟩
  iexact HO

/-- What the launch deals a core — its unscoped buffers at the launch memory, its generator register, nothing owed —
    is the state before the first item. -/
theorem launch_state (ρ : Dev nD → PrngReg) (c : Dev nD) :
    iprop(iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (fun _ : Dev nD => (iprop(emp) : sProp 𝕄)) c) ∗ levAts L lv)
      ⊢ (|={Set.univ}=> iprop(StableHlo.held (c : Thread nD τ) (Pipeline.ucRefs τ sig) (Gen.V0 m c) ∗ E (F := F) 0 c) : sProp 𝕄) := by
  rw [show unscopedBufs c (fun b => m ((c : Thread nD τ).loc b)) = StableHlo.held (c : Thread nD τ) (Pipeline.ucRefs τ sig) (Gen.V0 m c)
    from Pipeline.unscopedBufs_held c (Gen.V0 m c)]
  iintro ⟨⟨Hbufs, -, Howes, -, Hreg, -⟩, -⟩
  imodintro
  isplitl [Hbufs]; · iexact Hbufs
  isplitl [Hreg]; · iexists _; iexact Hreg
  iexists ∅; iexact Howes

set_option backward.isDefEq.respectTransparency.types false in
/-- Every weakly fair execution from memory `m` with zero counters terminates; at the end the result buffer holds the
    last valuation of the fold at the result, and the three arguments hold what they were launched with. -/
theorem run_main (ρ : Dev nD → PrngReg) :
    θ_run defs (onTc (τ := τ) (main (F := F))) ⟨m, fun _ => 0, ρ⟩ (fun r => ∀ c : Dev nD,
      r.2.mem ((c.tc : Thread nD τ).loc main_v24) = Gen.V9 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ L lv m ρ main
    (items m)
    (fun c Q => ?_)
    (fun c => by simp only [items, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V9 m (outs m) c))
    (hch := fun c => ⟨.rfl, hpre0 m c, (hpost0 m c).trans (hpre1 m c), hpost1 m c, .rfl, .rfl, .rfl, .rfl, .rfl,
      sep_mono .rfl (rest_owes_nothing 2 c)⟩)
    (hinit := Pipeline.initEach L lv (launch_state m ρ))
    (QY := fun c s => s.mem ((c.tc : Thread nD τ).loc main_v24) = Gen.V9 m (outs m) c main_v24
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the program is the chain of its nine items' programs, and so is the run of the nine segments
    rewrite [main_chain c, Pipeline.Seg.run_eq_chain,
      show (items m c).map Pipeline.Seg.prog = [
        StableHlo.seq hostOps0,
        Prog.lift (.customCall (Pipeline.entry 0) ()),
        Prog.lift (.customCall (Pipeline.entry 1) ()),
        StableHlo.seq hostOps2,
        StableHlo.seq hostOps2_1,
        StableHlo.seq hostOps2_2,
        StableHlo.seq hostOps2_3,
        StableHlo.seq hostOps2_4,
        StableHlo.seq hostOps2_5 ] from rfl]
    exact .rfl
  · -- the launch's ghost element is the staging cells' own; no further resource is dealt
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the end: the unscoped buffers, held at V9, agree with the final memory; the result is V9's, and an argument,
    -- written by no item, is the launch memory's
    unfold StableHlo.held
    iintro ⟨Hbufs, HSI⟩
    ihave Hr := (pointsTo_read_all (Pipeline.ucRefs τ sig) (fun b => ((c : Thread nD τ).1, b)) (Gen.V9 m (outs m) c) s') $$ [Hbufs HSI]
    · isplitl [Hbufs] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (Gen.V9_main_arg0 m (outs m) c),
        (h (Proc.devRef .tc main_arg1) (Finset.mem_filter.mpr ⟨StableHlo.devRef_mem_tcRefs main_arg1, by decide⟩)).trans (Gen.V9_main_arg1 m (outs m) c),
        (h (Proc.devRef .tc main_arg2) (Finset.mem_filter.mpr ⟨StableHlo.devRef_mem_tcRefs main_arg2, by decide⟩)).trans (Gen.V9_main_arg2 m (outs m) c)⟩
    · iexact HSI

end Cert.KernelIdeal.Run

end
-- ==== Proof.KI.TailDef.lean ====
/-
  The host operations that follow the score kernel, as one function of the score column and the three arguments:
  rows the mask drops get minus infinity, a softmax over the rows gives weights, the weighted sum of the document rows is
  divided by the larger of its Euclidean norm and a fixed small literal, and if the mask selects no row at all the query
  row is returned instead.
-/
import proofs.«127008_j80152679678829_1_alg».proof.Proof.Gen.KernelIdeal

noncomputable section

namespace Cert.KernelIdeal.Tail

open Idealize.ShloMosaic Cert.KernelIdeal Cert.KernelIdeal.Facts₀

variable {F : FTy → Type} [FloatOps F]

/-- The scores with the rows outside the mask at minus infinity. -/
def masked (s : (⟨S8192, .f32⟩ : BufTy).Contents (Elt F)) (x2 : (⟨S8192, .i1⟩ : BufTy).Contents (Elt F)) :
    (⟨S8192, .f32⟩ : BufTy).Contents (Elt F) :=
  select x2 s (broadcastInDim S8192 ![] bcast_S_S8192 (constant S_ .f32 0xFF800000#32))

/-- The largest masked score (minus infinity when there is none). -/
def smax (v : (⟨S8192, .f32⟩ : BufTy).Contents (Elt F)) : (⟨S_, .f32⟩ : BufTy).Contents (Elt F) :=
  maximumf (constant S_ .f32 0xFF800000#32) (Host.reduce FloatOps.maximumf v (constant S_ .f32 0xFF800000#32) reducesTo_S8192_S_d0 h_S_)

/-- The exponentials of the masked scores shifted by their maximum. -/
def expd (v : (⟨S8192, .f32⟩ : BufTy).Contents (Elt F)) : (⟨S8192, .f32⟩ : BufTy).Contents (Elt F) :=
  Host.exp (subf v (broadcastInDim S8192 ![0] bcast_S1_S8192_0 (broadcastInDim S1 ![] bcast_S_S1 (smax v))))

/-- The softmax weights. -/
def weights (v : (⟨S8192, .f32⟩ : BufTy).Contents (Elt F)) : (⟨S8192, .f32⟩ : BufTy).Contents (Elt F) :=
  Host.divf (expd v) (broadcastInDim S8192 ![0] bcast_S1_S8192_0 (broadcastInDim S1 ![] bcast_S_S1
    (Host.reduceAdd (expd v) (constant S_ .f32 0x00000000#32) reducesTo_S8192_S_d0 h_S_)))

/-- The weighted sum of the document rows. -/
def wavg (v : (⟨S8192, .f32⟩ : BufTy).Contents (Elt F)) (x1 : (⟨S8192x1024, .f32⟩ : BufTy).Contents (Elt F)) :
    (⟨S1024, .f32⟩ : BufTy).Contents (Elt F) :=
  Host.reduceAdd (mulf x1 (broadcastInDim S8192x1024 ![0, 1] bcast_S8192x1_S8192x1024_0_1
    (broadcastInDim S8192x1 ![0] bcast_S8192_S8192x1_0 (weights v)))) (constant S_ .f32 0x00000000#32) reducesTo_S8192x1024_S1024_d0 h_S_

/-- A row divided by the larger of its Euclidean norm and the literal. -/
def normed (w : (⟨S1024, .f32⟩ : BufTy).Contents (Elt F)) : (⟨S1024, .f32⟩ : BufTy).Contents (Elt F) :=
  Host.divf w (broadcastInDim S1024 ![] bcast_S_S1024
    (maximumf (Host.sqrt (Host.reduceAdd (mulf w w) (constant S_ .f32 0x00000000#32) reducesTo_S1024_S_d0 h_S_)) (constant S_ .f32 0x2B8CBCCC#32)))

/-- The result: the normalised weighted sum if the mask selects a row, else the query row. -/
def pick (x2 : (⟨S8192, .i1⟩ : BufTy).Contents (Elt F)) (o x0 : (⟨S1024, .f32⟩ : BufTy).Contents (Elt F)) :
    (⟨S1024, .f32⟩ : BufTy).Contents (Elt F) :=
  select (broadcastInDim S1024 ![] bcast_S_S1024 (Host.reduce IntOp.ori x2 (constantI S_ 1 0#1) reducesTo_S8192_S_d0 h_S_)) o x0

/-- The whole tail over a score vector. -/
def tailV (s : (⟨S8192, .f32⟩ : BufTy).Contents (Elt F)) (x0 : (⟨S1024, .f32⟩ : BufTy).Contents (Elt F))
    (x1 : (⟨S8192x1024, .f32⟩ : BufTy).Contents (Elt F)) (x2 : (⟨S8192, .i1⟩ : BufTy).Contents (Elt F)) :
    (⟨S1024, .f32⟩ : BufTy).Contents (Elt F) :=
  pick x2 (normed (wavg (masked s x2) x1)) x0

/-- The whole tail over the score COLUMN the kernel writes (an 8192 x 1 array, read as a vector). -/
def tailK (col : (⟨S8192x1, .f32⟩ : BufTy).Contents (Elt F)) (x0 : (⟨S1024, .f32⟩ : BufTy).Contents (Elt F))
    (x1 : (⟨S8192x1024, .f32⟩ : BufTy).Contents (Elt F)) (x2 : (⟨S8192, .i1⟩ : BufTy).Contents (Elt F)) :
    (⟨S1024, .f32⟩ : BufTy).Contents (Elt F) :=
  tailV (shapeCast S8192 col shapeCasts_S8192x1_S8192) x0 x1 x2

end Cert.KernelIdeal.Tail

end
-- ==== Proof.KI.Tail.lean ====
/-
  The result buffer read back through the host operations after the score kernel: it is the tail function of the score
  column region 1 leaves and of the three arguments; and what the host reshape before region 0 leaves in the query's
  1 x 1024 buffer.

  The host operations come in stretches, and the buffers' contents after a stretch are a fold of its operations over
  the contents before it. A buffer a stretch does not write is unchanged by it, so the three arguments reach every
  stretch as launched; a buffer it writes holds its operation's function of the operands. Reading the result buffer
  back one stretch at a time — the select, the division by the norm, the norm, the weighted sum, the mask, the reshape
  of the column — and putting the pieces together gives the tail function, term for term.
-/
import proofs.«127008_j80152679678829_1_alg».proof.Proof.KI.LaunchDefs
import proofs.«127008_j80152679678829_1_alg».proof.Proof.KI.TailDef
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Cert.KernelIdeal.R0 Cert.KernelIdeal.R1
open Idealize.ShloMosaic.Pipeline (RegionSeg)
open Cert.KernelIdeal.Tail
variable (m : (ℓ : Loc nD τ sig) → Buf (Elt F) ℓ)

/-! ## One stretch of host operations at a time, over any valuation

Each stretch writes a few buffers; what it leaves in a buffer it writes is that operation's function of what the
valuation before the stretch holds at the operands. -/

section Stretches

variable (W : Valuation τ sig (Elt F))

/-- The score column read as a vector of 8192 scores. -/
theorem scores_of_column :
    StableHlo.after hostOps2 W (Proc.devRef .tc main_v3) = shapeCast S8192 (W main_v2) Gen.shapeCasts_S8192x1_S8192 := by
  dsimp only [hostOps2]; after_results; rfl

/-- The scalar minus infinity. -/
theorem neg_inf_scalar :
    StableHlo.after hostOps2 W (Proc.devRef .tc main_cst) = constant S_ .f32 0xFF800000#32 := by
  dsimp only [hostOps2]; after_results

/-- The masked scores: where the mask holds the score, elsewhere the scalar spread over the rows. -/
theorem masked_scores :
    StableHlo.after hostOps2_1 W (Proc.devRef .tc main_v4)
      = select (W main_arg2) (W main_v3) (broadcastInDim S8192 ![] Gen.bcast_S_S8192 (W main_cst)) := by
  dsimp only [hostOps2_1]; after_results; rfl

/-- The softmax weights of the masked scores applied to the document rows and summed over the rows. -/
theorem weighted_sum :
    StableHlo.after hostOps2_2 W (Proc.devRef .tc main_v18) = wavg (W main_v4) (W main_arg1) := by
  dsimp only [hostOps2_2]; after_results; rfl

/-- The Euclidean norm of the weighted sum. -/
theorem norm_of_sum :
    StableHlo.after hostOps2_3 W (Proc.devRef .tc main_v19)
      = Host.sqrt (Host.reduceAdd (mulf (W main_v18) (W main_v18)) (constant S_ .f32 0x00000000#32) Gen.reducesTo_S1024_S_d0 Gen.h_S_) := by
  dsimp only [hostOps2_3]; after_results; rfl

/-- The weighted sum divided by the larger of its norm and the literal. -/
theorem sum_over_norm :
    StableHlo.after hostOps2_4 W (Proc.devRef .tc main_v22)
      = Host.divf (W main_v18) (broadcastInDim S1024 ![] Gen.bcast_S_S1024 (maximumf (W main_v19) (constant S_ .f32 0x2B8CBCCC#32))) := by
  dsimp only [hostOps2_4]; after_results

/-- Whether the mask selects any row. -/
theorem any_row :
    StableHlo.after hostOps2_4 W (Proc.devRef .tc main_v23)
      = Host.reduce IntOp.ori (W main_arg2) (constantI S_ 1 0#1) Gen.reducesTo_S8192_S_d0 Gen.h_S_ := by
  dsimp only [hostOps2_4]; after_results

/-- The result: the normalised sum if any row is selected, else the query row. -/
theorem picked :
    StableHlo.after hostOps2_5 W (Proc.devRef .tc main_v24)
      = select (broadcastInDim S1024 ![] Gen.bcast_S_S1024 (W main_v23)) (W main_v22) (W main_arg0) := by
  dsimp only [hostOps2_5]; after_results; rfl

end Stretches

/-! ## The arguments reach every stretch as launched -/

section Arguments

variable (c : Dev nD)

theorem V3_arg0 : Gen.V3 m (outs m) c main_arg0 = m ((c.tc : Thread nD τ).loc main_arg0) :=
  (Gen.V3_of m (outs m) c main_arg0 (by decide)).trans <| (Gen.V2_of m (outs m) c main_arg0 (by decide)).trans <|
    (Gen.V1_of m c main_arg0 (by decide)).trans rfl
theorem V3_arg1 : Gen.V3 m (outs m) c main_arg1 = m ((c.tc : Thread nD τ).loc main_arg1) :=
  (Gen.V3_of m (outs m) c main_arg1 (by decide)).trans <| (Gen.V2_of m (outs m) c main_arg1 (by decide)).trans <|
    (Gen.V1_of m c main_arg1 (by decide)).trans rfl
theorem V3_arg2 : Gen.V3 m (outs m) c main_arg2 = m ((c.tc : Thread nD τ).loc main_arg2) :=
  (Gen.V3_of m (outs m) c main_arg2 (by decide)).trans <| (Gen.V2_of m (outs m) c main_arg2 (by decide)).trans <|
    (Gen.V1_of m c main_arg2 (by decide)).trans rfl

/-- The mask as the masking stretch finds it. -/
theorem V4_arg2 : Gen.V4 m (outs m) c main_arg2 = m ((c.tc : Thread nD τ).loc main_arg2) :=
  (Gen.V4_of m (outs m) c main_arg2 (by decide)).trans (V3_arg2 m c)
/-- The documents as the softmax stretch finds them. -/
theorem V5_arg1 : Gen.V5 m (outs m) c main_arg1 = m ((c.tc : Thread nD τ).loc main_arg1) :=
  (Gen.V5_of m (outs m) c main_arg1 (by decide)).trans <| (Gen.V4_of m (outs m) c main_arg1 (by decide)).trans (V3_arg1 m c)
/-- The mask as the normalising stretch finds it. -/
theorem V7_arg2 : Gen.V7 m (outs m) c main_arg2 = m ((c.tc : Thread nD τ).loc main_arg2) :=
  (Gen.V7_of m (outs m) c main_arg2 (by decide)).trans <| (Gen.V6_of m (outs m) c main_arg2 (by decide)).trans <|
    (Gen.V5_of m (outs m) c main_arg2 (by decide)).trans (V4_arg2 m c)
/-- The query as the last select finds it. -/
theorem V8_arg0 : Gen.V8 m (outs m) c main_arg0 = m ((c.tc : Thread nD τ).loc main_arg0) :=
  (Gen.V8_of m (outs m) c main_arg0 (by decide)).trans <| (Gen.V7_of m (outs m) c main_arg0 (by decide)).trans <|
    (Gen.V6_of m (outs m) c main_arg0 (by decide)).trans <| (Gen.V5_of m (outs m) c main_arg0 (by decide)).trans <|
    (Gen.V4_of m (outs m) c main_arg0 (by decide)).trans (V3_arg0 m c)

end Arguments

/-! ## The result buffer, stretch by stretch -/

section Result

variable (c : Dev nD)

/-- After region 1 the score buffer holds what region 1 leaves. -/
theorem V3_v2 : Gen.V3 m (outs m) c main_v2 = outs m 3 main_v2 c := by
  dsimp only [Gen.V3]; exact Function.update_self ..

/-- The masked scores of the column region 1 leaves. -/
theorem V5_v4 : Gen.V5 m (outs m) c main_v4
    = masked (shapeCast S8192 (outs m 3 main_v2 c) Facts₀.shapeCasts_S8192x1_S8192) (m ((c.tc : Thread nD τ).loc main_arg2)) := by
  have h := masked_scores (Gen.V4 m (outs m) c)
  rw [V4_arg2 m c,
    show Gen.V4 m (outs m) c main_v3 = _ from scores_of_column (Gen.V3 m (outs m) c),
    show Gen.V4 m (outs m) c main_cst = _ from neg_inf_scalar (Gen.V3 m (outs m) c), V3_v2 m c] at h
  exact h

/-- The weighted sum of the document rows. -/
theorem V6_v18 : Gen.V6 m (outs m) c main_v18
    = wavg (masked (shapeCast S8192 (outs m 3 main_v2 c) Facts₀.shapeCasts_S8192x1_S8192) (m ((c.tc : Thread nD τ).loc main_arg2)))
        (m ((c.tc : Thread nD τ).loc main_arg1)) := by
  have h := weighted_sum (Gen.V5 m (outs m) c)
  rw [V5_v4 m c, V5_arg1 m c] at h
  exact h

/-- The weighted sum divided by the larger of its norm and the literal. -/
theorem V8_v22 : Gen.V8 m (outs m) c main_v22 = normed (Gen.V6 m (outs m) c main_v18) := by
  have h := sum_over_norm (Gen.V7 m (outs m) c)
  rw [show Gen.V7 m (outs m) c main_v19 = _ from norm_of_sum (Gen.V6 m (outs m) c),
    Gen.V7_of m (outs m) c main_v18 (by decide)] at h
  exact h

/-- Whether the mask selects any row. -/
theorem V8_v23 : Gen.V8 m (outs m) c main_v23
    = Host.reduce IntOp.ori (m ((c.tc : Thread nD τ).loc main_arg2)) (constantI S_ 1 0#1) Facts₀.reducesTo_S8192_S_d0 Facts₀.h_S_ := by
  have h := any_row (Gen.V7 m (outs m) c)
  rw [V7_arg2 m c] at h
  exact h

end Result

/-- The result buffer at the end of the run. -/
theorem V9_v24 (c : Dev nD) :
    Gen.V9 m (outs m) c main_v24
      = tailK (outs m 3 main_v2 c) (m ((c.tc : Thread nD τ).loc main_arg0)) (m ((c.tc : Thread nD τ).loc main_arg1)) (m ((c.tc : Thread nD τ).loc main_arg2)) := by
  have h := picked (Gen.V8 m (outs m) c)
  rw [V8_v23 m c, V8_v22 m c, V6_v18 m c, V8_arg0 m c] at h
  exact h

/-- Region 0 is entered with the query row reshaped into a 1 x 1024 array, -/
theorem E1_v0 (c : Dev nD) :
    E1 m c main_v0 = shapeCast S1x1024 (m ((c.tc : Thread nD τ).loc main_arg0)) Cert.KernelIdeal.Facts₀.shapeCasts_S1024_S1x1024 := by
  show StableHlo.after hostOps0 (Gen.V0 m c) (Proc.devRef .tc main_v0) = _
  dsimp only [hostOps0]; after_results; rfl

/-- and the documents as launched. -/
theorem E1_arg1 (c : Dev nD) : E1 m c main_arg1 = m ((c.tc : Thread nD τ).loc main_arg1) :=
  (Gen.V1_of m c main_arg1 (by decide)).trans rfl

/-- Region 1 is entered with what region 0 left in cn's and dn's buffers. -/
theorem E2_v1_0 (c : Dev nD) : E2 m c main_v1_0 = (dat0 (E1 m) c).arrAt 2 cfg0.N := by
  dsimp only [E2, Gen.V2]
  rw [Function.update_of_ne (StableHlo.devRef_ne_of_ne (by decide)), Function.update_self, outsA_v1_0]
theorem E2_v1_1 (c : Dev nD) : E2 m c main_v1_1 = (dat0 (E1 m) c).arrAt 3 cfg0.N := by
  dsimp only [E2, Gen.V2]
  rw [Function.update_self, outsA_v1_1]

end Cert.KernelIdeal.Run

end
-- ==== Proof.Spec.lean ====
/-
  The mathematics both programs compute, over the extended reals and plain coordinates (no program is imported here).
  A document matrix d has 8192 rows of 1024 entries and q is one row of 1024. Each row of d, and each row of the
  half-sums (q + d_r) / 2, is divided by the larger of its Euclidean norm and a fixed small literal. The score of row r
  is the sum over the other rows c of <cn_r, dn_c> * (1 - <dn_r, dn_c>).
-/
import Idealize.ShloMosaic.PureOps.Ideal
import Idealize.ShloMosaic.PureOps.Ideal.Laws
import Idealize.ShloMosaic.Lib.ValueIdx
import Mathlib.Data.Fintype.BigOperators
import Mathlib.Algebra.BigOperators.Fin
import Mathlib.Logic.Equiv.Fin.Basic

noncomputable section

open scoped BigOperators

namespace Cert.Spec

open Idealize.ShloMosaic Idealize.ShloMosaic.ValueIdx

/-- The literal one half, as both programs print it. -/
def half : EReal := Ideal.ofBits .f32 0x3F000000#32
/-- The lower bound on a row's norm, as both programs print it. -/
def epsC : EReal := Ideal.ofBits .f32 0x322BCC77#32

/-- Each row divided by the larger of its Euclidean norm and `epsC`. -/
def unitRows (x : Fin 8192 → Fin 1024 → EReal) : Fin 8192 → Fin 1024 → EReal :=
  fun r k => Ideal.div (x r k) (max (Ideal.sqrt (∑ j : Fin 1024, x r j * x r j)) epsC)

/-- The half-sum of the query row and each document row. -/
def comb (q : Fin 1024 → EReal) (d : Fin 8192 → Fin 1024 → EReal) : Fin 8192 → Fin 1024 → EReal :=
  fun r k => (q k + d r k) * half

/-- The normalised half-sums. -/
def cn (q : Fin 1024 → EReal) (d : Fin 8192 → Fin 1024 → EReal) : Fin 8192 → Fin 1024 → EReal := unitRows (comb q d)
/-- The normalised documents. -/
def dn (d : Fin 8192 → Fin 1024 → EReal) : Fin 8192 → Fin 1024 → EReal := unitRows d

/-- The inner product of row r of a with row c of b. -/
def dotRows (a b : Fin 8192 → Fin 1024 → EReal) (r c : Fin 8192) : EReal := ∑ k : Fin 1024, a r k * b c k

/-- One entry of the contribution matrix, the diagonal replaced by zero. -/
def contrib (a b : Fin 8192 → Fin 1024 → EReal) (r c : Fin 8192) : EReal :=
  if r = c then 0 else dotRows a b r c * (1 - dotRows b b r c)

/-- The score of row r: the sum of its contributions over all columns. -/
def scores (a b : Fin 8192 → Fin 1024 → EReal) (r : Fin 8192) : EReal := ∑ c : Fin 8192, contrib a b r c

/-- The literal 1.0 denotes the extended real 1. -/
theorem ofBits_one : Ideal.ofBits .f32 0x3F800000#32 = (1 : EReal) := by
  -- sign bit clear, exponent field 127, fraction field 0: the value is (2^23 + 0) * 2^(127 - 127 - 23) = 1
  simp [Ideal.ofBits, Ideal.ieee, -EReal.coe_mul]
  norm_num

/-- A sum over 8192 columns is the sum over 8 blocks of the sums over the 1024 columns of each block. -/
theorem sum_blocks {M : Type} [AddCommMonoid M] (f : Fin 8192 → M) :
    ∑ c : Fin 8192, f c = ∑ j : Fin 8, ∑ k : Fin 1024, f ⟨1024 * j.val + k.val, by omega⟩ := by
  -- a column index is 1024 * (block) + (offset) for exactly one pair (block, offset)
  let e : Fin 8 × Fin 1024 ≃ Fin 8192 := finProdFinEquiv (m := 8) (n := 1024)
  have he : ∀ (j : Fin 8) (k : Fin 1024), e (j, k) = ⟨1024 * j.val + k.val, by omega⟩ := by
    intro j k
    apply Fin.ext
    show k.val + 1024 * j.val = 1024 * j.val + k.val
    omega
  calc ∑ c : Fin 8192, f c
      = ∑ p : Fin 8 × Fin 1024, f (e p) := (Equiv.sum_comp e f).symm
    _ = ∑ j : Fin 8, ∑ k : Fin 1024, f (e (j, k)) := Fintype.sum_prod_type _
    _ = ∑ j : Fin 8, ∑ k : Fin 1024, f ⟨1024 * j.val + k.val, by omega⟩ := by
        simp only [he]

/-- The partial sum over the first n column blocks. -/
def partialScores (a b : Fin 8192 → Fin 1024 → EReal) (r : Fin 8192) (n : ℕ) : EReal :=
  ∑ j ∈ Finset.range n, if h : j < 8 then ∑ k : Fin 1024, contrib a b r ⟨1024 * j + k.val, by omega⟩ else 0

theorem partialScores_zero (a b : Fin 8192 → Fin 1024 → EReal) (r : Fin 8192) : partialScores a b r 0 = 0 := by
  simp [partialScores]

theorem partialScores_succ (a b : Fin 8192 → Fin 1024 → EReal) (r : Fin 8192) (n : ℕ) (h : n < 8) :
    partialScores a b r (n + 1) = partialScores a b r n + ∑ k : Fin 1024, contrib a b r ⟨1024 * n + k.val, by omega⟩ := by
  simp [partialScores, Finset.sum_range_succ, h]

theorem partialScores_eight (a b : Fin 8192 → Fin 1024 → EReal) (r : Fin 8192) : partialScores a b r 8 = scores a b r := by
  -- the eight guarded block sums are the eight block sums, and those add up to the sum over all columns
  rw [scores, sum_blocks, partialScores, Finset.sum_range]
  refine Finset.sum_congr rfl fun j _ => ?_
  rw [dif_pos j.isLt]

end Cert.Spec

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.Value0.lean ====
/-
  What region 0 leaves in its two output arrays, at the ideal instance: every entry of cn's array is the specification's
  normalised half-sum of the query row and the document row, every entry of dn's array the normalised document entry.
  Block t of either output holds rows 512 t .. 512 t + 511, so the 16 blocks cover the 8192 rows.
  First the two payloads are read at one entry of a 512 x 1024 block: pointwise operations entry by entry, the lane sum
  as the sum over the row, the column of divisors spread back along the row. Then each input block is read where the
  output's rectangle says, so what a point writes back is its block of one function of the whole arrays; the blocks
  cover the array, so the array ends as that function.
-/
import proofs.«127008_j80152679678829_1_alg».proof.Proof.KI.Reg0
import proofs.«127008_j80152679678829_1_alg».proof.Proof.Spec
import proofs.«127008_j80152679678829_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val0

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.R0

/-! ## The two payloads read at an entry of the 512 x 1024 block -/

/-- The lane sum of a 512x1024 block along its columns, read at row p: the sum over that row's 1024 entries. -/
theorem rowSum_at (y : FVec Ideal S512x1024 .f32) (h : S512x1024.Reduces [1] S512) (hφ : FKind.Formats .f32)
    (hacc : (0x00000000#32 : BitVec 32) = 0x00000000#32) (p : Fin 512) :
    multiReduction (F := Ideal) .add [1] S512 y 0x00000000#32 h hφ hacc (ix1 p) = ∑ j : Fin 1024, y (ix2 p j) := by
  refine (Ideal.multiReduction_add_single y 0x00000000#32 h hφ hacc (ix1 p)).trans ?_
  refine Finset.sum_congr rfl fun j _ => congrArg y (funext fun a => ?_)
  match a with
  | ⟨0, _⟩ => exact Fin.ext rfl
  | ⟨1, _⟩ => exact Fin.ext rfl

/-- A row's divisor: the larger of the square root of the row's lane sum and the small literal. The lane sum is cast
    to a column, its square root taken entry by entry and bounded below, and the column spread along the row. -/
theorem rowDivisor_at (y : FVec Ideal S512x1024 .f32) (h : S512x1024.Reduces [1] S512) (hφ : FKind.Formats .f32)
    (hacc : (0x00000000#32 : BitVec 32) = 0x00000000#32) (hc : S512.ShapeCasts S512x1) (hb : S512x1.Broadcasts S512x1024)
    (p : Fin 512) (q : Fin 1024) :
    broadcastTo S512x1024
        (maximumf (sqrt (shapeCast S512x1 (multiReduction (F := Ideal) .add [1] S512 y 0x00000000#32 h hφ hacc) hc))
          (broadcast S512x1 (FloatOps.ofBits (F := Ideal) .f32 0x322BCC77#32))) hb (ix2 p q)
      = max (Ideal.sqrt (∑ j : Fin 1024, y (ix2 p j))) Cert.Spec.epsC := by
  refine (Cert.LibColumn.broadcastTo_a1_ab_apply _ hb p q).trans ?_
  rw [maximumf_apply, broadcast_apply]
  show max (Ideal.sqrt (shapeCast S512x1 _ hc (ix2 p (0 : Fin 1)))) _ = _
  rw [Cert.LibColumn.shapeCast_a_a1_apply _ hc p (0 : Fin 1), rowSum_at y h hφ hacc p]
  rfl

/-- The document payload at (p, q): the block's entry divided by its row's divisor. -/
theorem pay2_at (x1 : FVec Ideal S512x1024 .f32) (p : Fin 512) (q : Fin 1024) :
    (k0_pay2 (F := Ideal) x1) (ix2 p q)
      = Ideal.div (x1 (ix2 p q)) (max (Ideal.sqrt (∑ j : Fin 1024, x1 (ix2 p j) * x1 (ix2 p j))) Cert.Spec.epsC) := by
  unfold k0_pay2
  rw [truncf_apply, divf_apply]
  refine congrArg (Ideal.div (x1 (ix2 p q))) ?_
  exact rowDivisor_at (mulf x1 x1) _ _ _ _ _ p q

/-- The half-sum of the query row, spread down the block's rows, and the block: entry (p, k). -/
theorem halfSum_at (x1 : FVec Ideal S512x1024 .f32) (x0 : FVec Ideal S1x1024 .f32) (hs : S1x1024.ShapeCasts S1x1024)
    (hb : S1x1024.Broadcasts S512x1024) (p : Fin 512) (k : Fin 1024) :
    mulf (addf (broadcastTo S512x1024 (shapeCast S1x1024 x0 hs) hb) x1)
        (broadcast S512x1024 (FloatOps.ofBits (F := Ideal) .f32 0x3F000000#32)) (ix2 p k)
      = (x0 (ix2 (0 : Fin 1) k) + x1 (ix2 p k)) * Cert.Spec.half := by
  rw [mulf_apply, addf_apply, broadcast_apply, shapeCast_self, broadcastTo_1b_ab_apply x0 hb p k]
  rfl

/-- The half-sum payload at (p, q): the half-sum's entry divided by its row's divisor. -/
theorem pay1_at (x1 : FVec Ideal S512x1024 .f32) (x0 : FVec Ideal S1x1024 .f32) (p : Fin 512) (q : Fin 1024) :
    (k0_pay1 (F := Ideal) x1 x0) (ix2 p q)
      = Ideal.div ((x0 (ix2 (0 : Fin 1) q) + x1 (ix2 p q)) * Cert.Spec.half)
          (max (Ideal.sqrt (∑ j : Fin 1024, ((x0 (ix2 (0 : Fin 1) j) + x1 (ix2 p j)) * Cert.Spec.half)
              * ((x0 (ix2 (0 : Fin 1) j) + x1 (ix2 p j)) * Cert.Spec.half))) Cert.Spec.epsC) := by
  unfold k0_pay1
  rw [truncf_apply, divf_apply]
  refine congr (congrArg Ideal.div (halfSum_at x1 x0 _ _ p q)) ?_
  refine (rowDivisor_at _ _ _ _ _ _ p q).trans ?_
  refine congrArg (fun s => max (Ideal.sqrt s) Cert.Spec.epsC) ?_
  refine Finset.sum_congr rfl fun j _ => ?_
  rw [mulf_apply, halfSum_at x1 x0 _ _ p j]

variable (V : (c : Dev nD) → (b : Ref sig .tc) → Buf (Elt Ideal) ((c : Thread nD τ).loc b))

/-! ## Where the blocks sit -/

/-- The printed index maps over the 16 points: the query window stays at block (0, 0); the document window and both
    output windows are at block (t, 0). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The document block at point t is rows 512 t .. 512 t + 511 of the document array. -/
theorem docBlock_at (c : Dev nD) (t : Fin cfg0.N) (p : Fin 512) (k : Fin 1024) (i : S8192x1024.Idx)
    (hi0 : (i 0).val = 512 * t.val + p.val) (hi1 : (i 1).val = k.val) :
    (iblk0 V c 1 t : S512x1024.Idx → EReal) (ix2 p k) = (V c main_arg1 : S8192x1024.Idx → EReal) i := by
  obtain ⟨-, -, e0, e1, -⟩ := idx_facts t
  unfold iblk0
  rw [View.read_apply]
  show (V c main_arg1 : S8192x1024.Idx → EReal) _ = V c main_arg1 i
  refine congrArg (V c main_arg1 : S8192x1024.Idx → EReal) (funext fun a => Fin.ext ?_)
  match a with
  | ⟨0, _⟩ => show win0_1.index t (0 : Fin 2) * 512 + 1 * p.val = (i 0).val; omega
  | ⟨1, _⟩ => show win0_1.index t (1 : Fin 2) * 1024 + 1 * k.val = (i 1).val; omega

/-- The query block at every point is the one query row. -/
theorem queryBlock_at (c : Dev nD) (t : Fin cfg0.N) (k : Fin 1024) :
    (iblk0 V c 0 t : S1x1024.Idx → EReal) (ix2 (0 : Fin 1) k) = (V c main_v0 : S1x1024.Idx → EReal) (ix2 (0 : Fin 1) k) := by
  obtain ⟨e0, e1, -⟩ := idx_facts t
  unfold iblk0
  rw [View.read_apply]
  show (V c main_v0 : S1x1024.Idx → EReal) _ = V c main_v0 (ix2 (0 : Fin 1) k)
  refine congrArg (V c main_v0 : S1x1024.Idx → EReal) (funext fun a => Fin.ext ?_)
  match a with
  | ⟨0, _⟩ => show win0_0.index t (0 : Fin 2) * 1 + 1 * 0 = 0; omega
  | ⟨1, _⟩ => show win0_0.index t (1 : Fin 2) * 1024 + 1 * k.val = k.val; omega

/-! ## The two arrays as functions of what the region reads -/

/-- The normalised half-sums over the whole 8192 x 1024 index set, from the query row and the document array as the
    region finds them. -/
def cnArr (c : Dev nD) : S8192x1024.Idx → EReal := fun i =>
  Cert.Spec.cn (fun k => (V c main_v0 : S1x1024.Idx → EReal) (ix2 0 k))
    (fun r k => (V c main_arg1 : S8192x1024.Idx → EReal) (ix2 r k)) (i 0) (i 1)

/-- The normalised documents over the whole index set. -/
def dnArr (c : Dev nD) : S8192x1024.Idx → EReal := fun i =>
  Cert.Spec.dn (fun r k => (V c main_arg1 : S8192x1024.Idx → EReal) (ix2 r k)) (i 0) (i 1)

/-- The half-sum payload of point t's blocks, at block entry j, is the specification's entry at the array index that
    entry lands on: row 512 t + j₀, column j₁. -/
theorem cn_block (c : Dev nD) (t : Fin cfg0.N) (j : S512x1024.Idx) (i : S8192x1024.Idx)
    (hi0 : (i 0).val = 512 * t.val + (j 0).val) (hi1 : (i 1).val = (j 1).val) :
    k0_pay1 (F := Ideal) (iblk0 V c 1 t) (iblk0 V c 0 t) j = cnArr V c i := by
  obtain ⟨p, q, rfl⟩ : ∃ (p : Fin 512) (q : Fin 1024), j = ix2 p q := ⟨j 0, j 1, eq_ix2 j⟩
  refine (pay1_at (iblk0 V c 1 t) (iblk0 V c 0 t) p q).trans ?_
  have hd : ∀ k : Fin 1024, (iblk0 V c 1 t : S512x1024.Idx → EReal) (ix2 p k)
      = (V c main_arg1 : S8192x1024.Idx → EReal) (ix2 (i 0) k) :=
    fun k => docBlock_at V c t p k (ix2 (i 0) k) hi0 rfl
  have hq : ∀ k : Fin 1024, (iblk0 V c 0 t : S1x1024.Idx → EReal) (ix2 (0 : Fin 1) k)
      = (V c main_v0 : S1x1024.Idx → EReal) (ix2 (0 : Fin 1) k) := queryBlock_at V c t
  have hq1 : i 1 = q := Fin.ext hi1
  simp only [hd, hq]
  unfold cnArr Cert.Spec.cn Cert.Spec.unitRows Cert.Spec.comb
  rw [hq1]

/-- The document payload of point t's block, at block entry j, is the specification's entry at row 512 t + j₀,
    column j₁. -/
theorem dn_block (c : Dev nD) (t : Fin cfg0.N) (j : S512x1024.Idx) (i : S8192x1024.Idx)
    (hi0 : (i 0).val = 512 * t.val + (j 0).val) (hi1 : (i 1).val = (j 1).val) :
    k0_pay2 (F := Ideal) (iblk0 V c 1 t) j = dnArr V c i := by
  obtain ⟨p, q, rfl⟩ : ∃ (p : Fin 512) (q : Fin 1024), j = ix2 p q := ⟨j 0, j 1, eq_ix2 j⟩
  refine (pay2_at (iblk0 V c 1 t) p q).trans ?_
  have hd : ∀ k : Fin 1024, (iblk0 V c 1 t : S512x1024.Idx → EReal) (ix2 p k)
      = (V c main_arg1 : S8192x1024.Idx → EReal) (ix2 (i 0) k) :=
    fun k => docBlock_at V c t p k (ix2 (i 0) k) hi0 rfl
  have hq1 : i 1 = q := Fin.ext hi1
  simp only [hd]
  unfold dnArr Cert.Spec.dn Cert.Spec.unitRows
  rw [hq1]

/-! ## What each point writes back, and the cover -/

/-- Point t writes block t of the normalised half-sums. -/
theorem flushed2_eq (c : Dev nD) (t : Fin cfg0.N) :
    (dat0 V c).flushed 2 t = ((cfg0.win 2).blk t).view.read (Elt Ideal) (cnArr V c) := by
  obtain ⟨-, -, -, -, e0, e1, -⟩ := idx_facts t
  show (cfg0.win 2).cut (grid0.coords t) ((dat0 V c).after 2 t) = _
  rw [after0_2]
  funext j
  rw [View.read_apply]
  refine cn_block V c t j _ ?_ ?_
  · show win0_2.index t (0 : Fin 2) * 512 + 1 * (j 0).val = 512 * t.val + (j 0).val; omega
  · show win0_2.index t (1 : Fin 2) * 1024 + 1 * (j 1).val = (j 1).val; omega

/-- Point t writes block t of the normalised documents. -/
theorem flushed3_eq (c : Dev nD) (t : Fin cfg0.N) :
    (dat0 V c).flushed 3 t = ((cfg0.win 3).blk t).view.read (Elt Ideal) (dnArr V c) := by
  obtain ⟨-, -, -, -, -, -, e0, e1⟩ := idx_facts t
  show (cfg0.win 3).cut (grid0.coords t) ((dat0 V c).after 3 t) = _
  rw [after0_3]
  funext j
  rw [View.read_apply]
  refine dn_block V c t j _ ?_ ?_
  · show win0_3.index t (0 : Fin 2) * 512 + 1 * (j 0).val = 512 * t.val + (j 0).val; omega
  · show win0_3.index t (1 : Fin 2) * 1024 + 1 * (j 1).val = (j 1).val; omega

/-- An index is in point t's block of cn's array iff each coordinate is in the block's range on its axis. -/
theorem mem_blk2 (t : Fin cfg0.N) (i : S8192x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1_0).slice (win0_2.rect t)).set ↔ _
  rw [View.set_slice_whole, Rect.mem_set_unit]
  exact Iff.rfl

/-- The same for dn's array. -/
theorem mem_blk3 (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1_1).slice (win0_3.rect t)).set ↔ _
  rw [View.set_slice_whole, Rect.mem_set_unit]
  exact Iff.rfl

/-- Row r lies in block r / 512, and 8192 = 16 * 512: the 16 blocks cover cn's array. -/
theorem cover2 (i : S8192x1024.Idx) :
    ∃ t : Fin cfg0.N, (cfg0.win 2).flush t = true ∧ i ∈ ((cfg0.win 2).blk t).view.set := by
  have hN : cfg0.N = 16 := N_0
  have hi0 : (i 0).val < 8192 := idx2_lt0 i
  have hi1 : (i 1).val < 1024 := idx2_lt1 i
  refine ⟨⟨(i 0).val / 512, by rw [hN]; omega⟩, flush0_2 _, ?_⟩
  rw [mem_blk2]
  obtain ⟨-, -, -, -, e0, e1, -⟩ := idx_facts ⟨(i 0).val / 512, by rw [hN]; omega⟩
  intro a
  match a with
  | ⟨0, _⟩ =>
    show win0_2.index _ (0 : Fin 2) * 512 ≤ (i 0).val ∧ (i 0).val < win0_2.index _ (0 : Fin 2) * 512 + 512
    rw [e0]; show (i 0).val / 512 * 512 ≤ (i 0).val ∧ (i 0).val < (i 0).val / 512 * 512 + 512; omega
  | ⟨1, _⟩ =>
    show win0_2.index _ (1 : Fin 2) * 1024 ≤ (i 1).val ∧ (i 1).val < win0_2.index _ (1 : Fin 2) * 1024 + 1024
    rw [e1]; omega

/-- The 16 blocks cover dn's array likewise. -/
theorem cover3 (i : S8192x1024.Idx) :
    ∃ t : Fin cfg0.N, (cfg0.win 3).flush t = true ∧ i ∈ ((cfg0.win 3).blk t).view.set := by
  have hN : cfg0.N = 16 := N_0
  have hi0 : (i 0).val < 8192 := idx2_lt0 i
  have hi1 : (i 1).val < 1024 := idx2_lt1 i
  refine ⟨⟨(i 0).val / 512, by rw [hN]; omega⟩, flush0_3 _, ?_⟩
  rw [mem_blk3]
  obtain ⟨-, -, -, -, -, -, e0, e1⟩ := idx_facts ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 1024 ≤ (i 1).val ∧ (i 1).val < win0_3.index _ (1 : Fin 2) * 1024 + 1024
    rw [e1]; omega

/-! ## The arrays after the region -/

/-- cn's array ends as the normalised half-sums. -/
theorem cn_arr (c : Dev nD) : (dat0 V c).arrAt 2 cfg0.N = cnArr V c :=
  (dat0 V c).arrAt_eq_of_cover 2 (cnArr V c) (fun t _ => flushed2_eq V c t) (cover2)

/-- dn's array ends as the normalised documents. -/
theorem dn_arr (c : Dev nD) : (dat0 V c).arrAt 3 cfg0.N = dnArr V c :=
  (dat0 V c).arrAt_eq_of_cover 3 (dnArr V c) (fun t _ => flushed3_eq V c t) (cover3)

/-- cn's array after region 0, entry by entry. -/
theorem cn_final (c : Dev nD) (r : Fin 8192) (k : Fin 1024) :
    ((dat0 V c).arrAt 2 cfg0.N : S8192x1024.Idx → EReal) (ix2 r k)
      = Cert.Spec.cn (fun k => (V c main_v0 : S1x1024.Idx → EReal) (ix2 0 k)) (fun r k => (V c main_arg1 : S8192x1024.Idx → EReal) (ix2 r k)) r k :=
  congrFun (cn_arr V c) (ix2 r k)

/-- dn's array after region 0, entry by entry. -/
theorem dn_final (c : Dev nD) (r : Fin 8192) (k : Fin 1024) :
    ((dat0 V c).arrAt 3 cfg0.N : S8192x1024.Idx → EReal) (ix2 r k)
      = Cert.Spec.dn (fun r k => (V c main_arg1 : S8192x1024.Idx → EReal) (ix2 r k)) r k :=
  congrFun (dn_arr V c) (ix2 r k)

end Cert.KernelIdeal.Val0

end
-- ==== Proof.KI.Value1Pay.lean ====
/-
  One point's update of the scratch column, read at one row, at the ideal instance. With a, b, a', b' the four
  1024 x 1024 blocks the update is given and prev the column it adds to, row p of the result is
  prev p plus the sum over the 1024 columns q of: zero where the global row 1024 i0 + p is the global column
  1024 i1 + q, and otherwise <a_p, b_q> * (one - <a'_p, b'_q>), the inner products taken along the blocks' second
  axis and one the literal 1.0 as printed. The column a row block starts from is zero.
-/
import proofs.«127008_j80152679678829_1_alg».proof.Proof.Gen.KernelIdeal.Skeleton
import proofs.«127008_j80152679678829_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val1

open Idealize.ShloMosaic Idealize.ShloMosaic.ValueIdx
open Cert.KernelIdeal Cert.KernelIdeal.Gen
/-! ## The product of two blocks along their second axes -/

/-- The left operand's row is the output's row. -/
theorem lhs_dot_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the summation index. -/
theorem lhs_dot_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
/-- The right operand's row is the output's column. -/
theorem rhs_dot_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the summation index. -/
theorem rhs_dot_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Entry (p, q) of the product into a zero accumulator is the inner product of row p of a with row q of b. -/
theorem matmul_rows_apply (a b : FVec Ideal S1024x1024 .bf16) (p q : Fin 1024) :
    matmul dot_S1024x1024_S1024x1024_S1024x1024_1_1_0_0_n_n none a b (constant (F := Ideal) S1024x1024 .f32 0x00000000#32) (ix2 p q)
      = ∑ k : Fin 1024, a (ix2 p k) * b (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun ax => Fin.ext (by
    match ax with
    | ⟨0, _⟩ => exact lhs_dot_0 _ _
    | ⟨1, _⟩ => exact (lhs_dot_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun ax => Fin.ext (by
    match ax with
    | ⟨0, _⟩ => exact rhs_dot_0 _ _
    | ⟨1, _⟩ => exact (rhs_dot_1 _ _).trans hk)
  rw [el, er]

/-! ## The diagonal test -/

/-- The two 32-bit words 1024 i0 + p and 1024 i1 + q, for block indices below 8 and offsets below 1024, are equal
    exactly when the two natural numbers are: nothing wraps. -/
theorem diag_bit (i0 i1 p q : ℕ) (h0 : i0 < 8) (h1 : i1 < 8) (hp : p < 1024) (hq : q < 1024) :
    IntOp.cmpi .eq (IntOp.addi (Scalar.muli (BitVec.ofNat 32 i0) 1024#32) (BitVec.ofNat 32 p))
        (IntOp.addi (Scalar.muli (BitVec.ofNat 32 i1) 1024#32) (BitVec.ofNat 32 q)) = 1#1
      ↔ 1024 * i0 + p = 1024 * i1 + q := by
  have e : ∀ (i p : ℕ), i < 8 → p < 1024 →
      IntOp.addi (Scalar.muli (BitVec.ofNat 32 i) 1024#32) (BitVec.ofNat 32 p) = BitVec.ofNat 32 (1024 * i + p) := by
    intro i p _ _
    apply BitVec.eq_of_toNat_eq
    simp only [IntOp.addi, Scalar.muli, IntOp.muli, BitVec.toNat_add, BitVec.toNat_mul, BitVec.toNat_ofNat]
    omega
  rw [e i0 p h0 hp, e i1 q h1 hq]
  simp only [IntOp.cmpi]
  constructor
  · intro h
    have h' : (BitVec.ofNat 32 (1024 * i0 + p) == BitVec.ofNat 32 (1024 * i1 + q)) = true := by
      cases hb : (BitVec.ofNat 32 (1024 * i0 + p) == BitVec.ofNat 32 (1024 * i1 + q)) with
      | true => rfl
      | false => rw [hb] at h; exact absurd h (by decide)
    have h2 := congrArg BitVec.toNat (eq_of_beq h')
    simp only [BitVec.toNat_ofNat] at h2
    omega
  · intro h
    rw [h]
    simp

/-! ## The entries, the mask and the row sum -/

/-- Entry (p, q) of the block of contributions before masking. -/
theorem contrib_entry (a b a' b' : FVec Ideal S1024x1024 .bf16) (p q : Fin 1024) :
    mulf (matmul dot_S1024x1024_S1024x1024_S1024x1024_1_1_0_0_n_n none a b (constant (F := Ideal) S1024x1024 .f32 0x00000000#32))
        (subf (broadcast S1024x1024 (Scalar.ofBits (F := Ideal) .f32 0x3F800000#32))
          (matmul dot_S1024x1024_S1024x1024_S1024x1024_1_1_0_0_n_n none a' b' (constant (F := Ideal) S1024x1024 .f32 0x00000000#32))) (ix2 p q)
      = (∑ k : Fin 1024, a (ix2 p k) * b (ix2 q k))
          * (Ideal.ofBits .f32 0x3F800000#32 - ∑ k : Fin 1024, a' (ix2 p k) * b' (ix2 q k)) := by
  rw [mulf_apply, subf_apply, matmul_rows_apply, matmul_rows_apply]
  rfl

/-- The mask's bit at (p, q): the comparison of the words 1024 i0 + p and 1024 i1 + q. -/
theorem mask_entry (i : grid1.Coords) (p q : Fin 1024) :
    cmpi .eq
        (broadcastTo S1024x1024 (addi (broadcast S1024x1 (Scalar.muli (BitVec.ofNat 32 (i 0).val) 1024#32))
          (iota .tc S1024x1 32 [0] iota_S1024x1_d0_w32)) broadcasts_S1024x1_S1024x1024)
        (broadcastTo S1024x1024 (addi (broadcast S1x1024 (Scalar.muli (BitVec.ofNat 32 (i 1).val) 1024#32))
          (iota .tc S1x1024 32 [1] iota_S1x1024_d1_w32)) broadcasts_S1x1024_S1024x1024) (ix2 p q)
      = IntOp.cmpi .eq (IntOp.addi (Scalar.muli (BitVec.ofNat 32 (i 0).val) 1024#32) (BitVec.ofNat 32 p.val))
          (IntOp.addi (Scalar.muli (BitVec.ofNat 32 (i 1).val) 1024#32) (BitVec.ofNat 32 q.val)) := by
  show IntOp.cmpi .eq (broadcastTo S1024x1024 _ broadcasts_S1024x1_S1024x1024 (ix2 p q))
      (broadcastTo S1024x1024 _ broadcasts_S1x1024_S1024x1024 (ix2 p q)) = _
  rw [Cert.LibColumn.broadcastTo_a1_ab_apply, broadcastTo_1b_ab_apply]
  show IntOp.cmpi .eq (IntOp.addi _ (iota .tc S1024x1 32 [0] iota_S1024x1_d0_w32 (ix2 p (0 : Fin 1))))
      (IntOp.addi _ (iota .tc S1x1024 32 [1] iota_S1x1024_d1_w32 (ix2 (0 : Fin 1) q))) = _
  rw [iota_single_apply, iota_single_apply]
  rfl

/-- A sum along the second axis into a zero accumulator, read at row p. -/
theorem rowsum_entry (x : FVec Ideal S1024x1024 .f32) (hφ : FKind.Formats .f32)
    (hacc : (0x00000000#32 : BitVec 32) = FKind.add.neutral .f32 hφ) (p : Fin 1024) :
    multiReduction .add [1] S1024 x 0x00000000#32 reduces_S1024x1024_S1024 hφ hacc (ix1 p) = ∑ q : Fin 1024, x (ix2 p q) := by
  refine (Ideal.multiReduction_add_single x 0x00000000#32 reduces_S1024x1024_S1024 hφ hacc (ix1 p)).trans ?_
  refine Finset.sum_congr rfl fun q _ => congrArg x ?_
  funext ax
  match ax with
  | ⟨0, _⟩ => rfl
  | ⟨1, _⟩ => rfl

/-! ## The update at a row -/

/-- Row p of one point's update: the previous entry plus the row's masked contributions summed over the columns. -/
theorem pay2_apply (i : grid1.Coords) (a b a' b' : Vec Ideal S1024x1024 .bf16) (prev : Vec Ideal S1024x1 .f32) (p : Fin 1024) :
    k1_pay2 i a b a' b' prev (ix2 p (0 : Fin 1))
      = prev (ix2 p (0 : Fin 1)) + ∑ q : Fin 1024,
          (if 1024 * (i 0).val + p.val = 1024 * (i 1).val + q.val then (0 : EReal)
           else (∑ k : Fin 1024, a (ix2 p k) * b (ix2 q k))
             * (Ideal.ofBits .f32 0x3F800000#32 - ∑ k : Fin 1024, a' (ix2 p k) * b' (ix2 q k))) := by
  unfold k1_pay2
  dsimp only
  simp only [shapeCast_self]
  rw [addf_apply]
  congr 1
  rw [Cert.LibColumn.shapeCast_a_a1_apply]
  refine (rowsum_entry _ _ _ p).trans ?_
  refine Finset.sum_congr rfl fun q _ => ?_
  rw [select_apply, mask_entry, contrib_entry]
  have h0 : (i 0).val < 8 := (i 0).isLt
  have h1 : (i 1).val < 8 := (i 1).isLt
  show (if _ = 1#1 then Ideal.ofBits .f32 0x00000000#32 else _) = _
  rw [Ideal.ofBits_zero_f32]
  exact if_congr (diag_bit (i 0).val (i 1).val p.val q.val h0 h1 p.isLt q.isLt) rfl rfl

/-- The column a row block starts from is zero. -/
theorem pay1_apply (j : S1024x1.Idx) : k1_pay1 (F := Ideal) j = 0 := by
  unfold k1_pay1
  rw [shapeCast_self]
  exact Ideal.ofBits_zero_f32

end Cert.KernelIdeal.Val1

end
-- ==== Proof.KI.Value1.lean ====
/-
  What region 1 leaves in the score column, at the ideal instance: entry r is the specification's score of row r over the
  arrays the region is entered with. At point t = 8 i + j the three input windows hold rows 1024 i + p of the first
  array, rows 1024 i + p of the second and rows 1024 j + q of the second, so the point's update adds to row p of the
  scratch column the contributions of global row 1024 i + p over column block j. By induction on j the scratch
  column after j + 1 column blocks of row block i holds the partial scores over the first j + 1 blocks; the eighth
  point of a row block writes the full scores into block i of the result, and these blocks cover the result.
-/
import proofs.«127008_j80152679678829_1_alg».proof.Proof.KI.Reg1
import proofs.«127008_j80152679678829_1_alg».proof.Proof.Spec
import proofs.«127008_j80152679678829_1_alg».proof.Proof.KI.Value1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val1

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.R1

variable (V : (c : Dev nD) → (b : Ref sig .tc) → Buf (Elt Ideal) ((c : Thread nD τ).loc b))

/-! ## The two arrays by rows, and the blocks the windows read -/

/-- Row r of the first array the region reads (the normalised half-sums). -/
abbrev rowsA (c : Dev nD) : Fin 8192 → Fin 1024 → EReal := fun r k => (V c main_v1_0 : S8192x1024.Idx → EReal) (ix2 r k)
/-- Row r of the second array (the normalised documents). -/
abbrev rowsB (c : Dev nD) : Fin 8192 → Fin 1024 → EReal := fun r k => (V c main_v1_1 : S8192x1024.Idx → EReal) (ix2 r k)

/-- The three input blocks at a point, at their literal type. -/
abbrev blkA (c : Dev nD) (t : Fin cfg1.N) : Vec Ideal S1024x1024 .bf16 := iblk1 V c 0 t
abbrev blkBi (c : Dev nD) (t : Fin cfg1.N) : Vec Ideal S1024x1024 .bf16 := iblk1 V c 1 t
abbrev blkBj (c : Dev nD) (t : Fin cfg1.N) : Vec Ideal S1024x1024 .bf16 := iblk1 V c 2 t

/-- The index maps over the grid: at point t = 8 i + j windows 0, 1 and 3 are on block i, window 2 on block j,
    and the point's coordinates are (i, j). -/
theorem idx_facts1 : ∀ t : Fin cfg1.N,
    win1_0.index t (0 : Fin 2) = t.val / 8 ∧ win1_0.index t (1 : Fin 2) = 0
    ∧ win1_1.index t (0 : Fin 2) = t.val / 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0
    ∧ (grid1.coords t 0).val = t.val / 8 ∧ (grid1.coords t 1).val = t.val % 8 :=
  (by decide +kernel : ∀ t : Fin grid1.N, _)

/-- Window 0's block at t holds rows 1024 (t / 8) + p of the first array. -/
theorem blkA_apply (c : Dev nD) (t : Fin cfg1.N) (p k : Fin 1024) (r : Fin 8192) (hr : r.val = 1024 * (t.val / 8) + p.val) :
    blkA V c t (ix2 p k) = rowsA V c r k := by
  obtain ⟨e0, e1, -⟩ := idx_facts1 t
  unfold blkA iblk1
  rw [View.read_apply]
  show V c main_v1_0 _ = V c main_v1_0 _
  congr 1
  funext ax
  apply Fin.ext
  match ax with
  | ⟨0, _⟩ => show win1_0.index t 0 * 1024 + 1 * p.val = r.val; rw [e0, hr]; omega
  | ⟨1, _⟩ => show win1_0.index t 1 * 1024 + 1 * k.val = k.val; rw [e1]; omega

/-- Window 1's block at t holds rows 1024 (t / 8) + p of the second array. -/
theorem blkBi_apply (c : Dev nD) (t : Fin cfg1.N) (p k : Fin 1024) (r : Fin 8192) (hr : r.val = 1024 * (t.val / 8) + p.val) :
    blkBi V c t (ix2 p k) = rowsB V c r k := by
  obtain ⟨-, -, e0, e1, -⟩ := idx_facts1 t
  unfold blkBi iblk1
  rw [View.read_apply]
  show V c main_v1_1 _ = V c main_v1_1 _
  congr 1
  funext ax
  apply Fin.ext
  match ax with
  | ⟨0, _⟩ => show win1_1.index t 0 * 1024 + 1 * p.val = r.val; rw [e0, hr]; omega
  | ⟨1, _⟩ => show win1_1.index t 1 * 1024 + 1 * k.val = k.val; rw [e1]; omega

/-- Window 2's block at t holds rows 1024 (t % 8) + q of the second array. -/
theorem blkBj_apply (c : Dev nD) (t : Fin cfg1.N) (q k : Fin 1024) (s : Fin 8192) (hs : s.val = 1024 * (t.val % 8) + q.val) :
    blkBj V c t (ix2 q k) = rowsB V c s k := by
  obtain ⟨-, -, -, -, e0, e1, -⟩ := idx_facts1 t
  unfold blkBj iblk1
  rw [View.read_apply]
  show V c main_v1_1 _ = V c main_v1_1 _
  congr 1
  funext ax
  apply Fin.ext
  match ax with
  | ⟨0, _⟩ => show win1_2.index t 0 * 1024 + 1 * q.val = s.val; rw [e0, hs]; omega
  | ⟨1, _⟩ => show win1_2.index t 1 * 1024 + 1 * k.val = k.val; rw [e1]; omega

/-! ## One point's update, in the specification's words -/

/-- At point t, on row block ib = t / 8 and column block jb = t % 8, row p of the update adds to the previous entry the
    contributions of global row 1024 ib + p over the 1024 columns of column block jb. -/
theorem stepAt_apply (c : Dev nD) (t : Fin cfg1.N) (prev : Vec Ideal S1024x1 .f32) (p : Fin 1024) (r : Fin 8192)
    (hr : r.val = 1024 * (t.val / 8) + p.val) (jb : ℕ) (hjb : jb < 8) (ht : t.val % 8 = jb) :
    stepAt V c t prev (ix2 p (0 : Fin 1))
      = prev (ix2 p (0 : Fin 1)) + ∑ q : Fin 1024, Cert.Spec.contrib (rowsA V c) (rowsB V c) r ⟨1024 * jb + q.val, by omega⟩ := by
  obtain ⟨-, -, -, -, -, -, -, -, e8, e9⟩ := idx_facts1 t
  show k1_pay2 (grid1.coords t) (blkA V c t) (blkBj V c t) (blkBi V c t) (blkBj V c t) prev (ix2 p (0 : Fin 1)) = _
  rw [pay2_apply]
  congr 1
  refine Finset.sum_congr rfl fun q _ => ?_
  have hq : q.val < 1024 := q.isLt
  have hs : (⟨1024 * jb + q.val, by omega⟩ : Fin 8192).val = 1024 * (t.val % 8) + q.val := by rw [ht]
  unfold Cert.Spec.contrib Cert.Spec.dotRows
  rw [Cert.Spec.ofBits_one]
  simp only [blkA_apply V c t p _ r hr, blkBi_apply V c t p _ r hr, blkBj_apply V c t q _ ⟨1024 * jb + q.val, by omega⟩ hs]
  refine if_congr ?_ rfl rfl
  rw [e8, e9, Fin.ext_iff, hr, ht]

/-! ## The scratch column across one row block -/

/-- Below the grid's end, the column after point n is the point's update of the column before it (zero where a row block starts). -/
theorem accAt_succ (c : Dev nD) (n : ℕ) (h : n < cfg1.N) :
    accAt V c (n + 1) = stepAt V c ⟨n, h⟩ (if n % 8 = 0 then k1_pay1 (F := Ideal) else accAt V c n) := by
  rw [accAt, dif_pos h]

/-- After the first j + 1 points of row block i, row p of the column is the partial score of global row 1024 i + p
    over the first j + 1 column blocks. -/
theorem accAt_apply (c : Dev nD) (i : ℕ) (hi : i < 8) (p : Fin 1024) (r : Fin 8192) (hr : r.val = 1024 * i + p.val) :
    ∀ j : ℕ, j < 8 → accAt V c (8 * i + j + 1) (ix2 p (0 : Fin 1)) = Cert.Spec.partialScores (rowsA V c) (rowsB V c) r (j + 1)
  | 0, hj => by
    have hN : cfg1.N = 64 := N_1
    have h : 8 * i + 0 < cfg1.N := by omega
    rw [accAt_succ V c (8 * i + 0) h, if_pos (by omega),
      stepAt_apply V c ⟨8 * i + 0, h⟩ _ p r (by show r.val = 1024 * ((8 * i + 0) / 8) + p.val; omega) 0 hj (by show (8 * i + 0) % 8 = 0; omega),
      pay1_apply, Cert.Spec.partialScores_succ _ _ _ 0 hj, Cert.Spec.partialScores_zero]
  | j + 1, hj => by
    have hN : cfg1.N = 64 := N_1
    have h : 8 * i + (j + 1) < cfg1.N := by omega
    rw [accAt_succ V c (8 * i + (j + 1)) h, if_neg (by omega),
      stepAt_apply V c ⟨8 * i + (j + 1), h⟩ _ p r (by show r.val = 1024 * ((8 * i + (j + 1)) / 8) + p.val; omega) (j + 1) hj (by show (8 * i + (j + 1)) % 8 = j + 1; omega),
      Cert.Spec.partialScores_succ _ _ _ (j + 1) hj]
    exact congrArg (· + _) (accAt_apply c i hi p r hr j (by omega))

/-! ## The result column -/

/-- What the result array ends holding: entry r is the score of row r. -/
abbrev scoreCol (c : Dev nD) : S8192x1.Idx → EReal :=
  fun idx => Cert.Spec.scores (rowsA V c) (rowsB V c) ⟨(idx 0).val, idx2_lt0 idx⟩

/-- A point that writes back (the last of its row block) writes its block of the score column. -/
theorem flushed_eq (c : Dev nD) (t : Fin cfg1.N) (hf : (cfg1.win 3).flush t = true) :
    (dat1 V c).flushed 3 t = ((cfg1.win 3).blk t).view.read (Elt Ideal) (scoreCol V c) := by
  have hN : cfg1.N = 64 := N_1
  have h7 : t.val % 8 = 7 := (flush1_3 t).mp hf
  have htl : t.val < 64 := hN ▸ t.isLt
  obtain ⟨-, -, -, -, -, -, e6, e7, -⟩ := idx_facts1 t
  show (cfg1.win 3).cut (grid1.coords t) ((dat1 V c).after 3 t) = _
  rw [after1_3]
  funext y
  obtain ⟨p, u, rfl⟩ : ∃ (p : Fin 1024) (u : Fin 1), y = ix2 p u := ⟨y 0, y 1, eq_ix2 y⟩
  obtain rfl : u = 0 := Subsingleton.elim _ _
  have hp : p.val < 1024 := p.isLt
  have key := accAt_apply V c (t.val / 8) (by omega) p ⟨1024 * (t.val / 8) + p.val, by omega⟩ rfl 7 (by omega)
  rw [show 8 * (t.val / 8) + 7 + 1 = t.val + 1 from by omega, Cert.Spec.partialScores_eight] at key
  refine key.trans ?_
  show Cert.Spec.scores (rowsA V c) (rowsB V c) _ = Cert.Spec.scores (rowsA V c) (rowsB V c) _
  congr 1
  apply Fin.ext
  show 1024 * (t.val / 8) + p.val = win1_3.index t 0 * 1024 + 1 * p.val
  rw [e6]; omega

/-- Every entry of the result array is in the block of some point that writes back: row r in that of point 8 (r / 1024) + 7. -/
theorem cover (i : S8192x1.Idx) : ∃ t : Fin cfg1.N, (cfg1.win 3).flush t = true ∧ i ∈ ((cfg1.win 3).blk t).view.set := by
  have hN : cfg1.N = 64 := N_1
  have h0 : (i 0).val < 8192 := idx2_lt0 i
  have h1 : (i 1).val < 1 := idx2_lt1 i
  obtain ⟨t, ht⟩ : ∃ t : Fin cfg1.N, t.val = 8 * ((i 0).val / 1024) + 7 := ⟨⟨8 * ((i 0).val / 1024) + 7, by omega⟩, rfl⟩
  obtain ⟨-, -, -, -, -, -, e6, e7, -⟩ := idx_facts1 t
  refine ⟨t, (flush1_3 t).mpr (by omega), ?_⟩
  show i ∈ ((View.whole main_v2).slice (win1_3.rect t)).set
  rw [View.set_slice_whole, Rect.mem_set_unit]
  intro a
  match a with
  | ⟨0, _⟩ =>
    show win1_3.index t 0 * 1024 ≤ (i 0).val ∧ (i 0).val < win1_3.index t 0 * 1024 + 1024
    rw [e6]; omega
  | ⟨1, _⟩ =>
    show win1_3.index t 1 * 1 ≤ (i 1).val ∧ (i 1).val < win1_3.index t 1 * 1 + 1
    rw [e7]; omega

/-- The score column after region 1, entry by entry. -/
theorem scores_final (c : Dev nD) (r : Fin 8192) :
    ((dat1 V c).arrAt 3 cfg1.N : S8192x1.Idx → EReal) (ix2 r 0)
      = Cert.Spec.scores (fun r k => (V c main_v1_0 : S8192x1024.Idx → EReal) (ix2 r k)) (fun r k => (V c main_v1_1 : S8192x1024.Idx → EReal) (ix2 r k)) r :=
  congrFun ((dat1 V c).arrAt_eq_of_cover 3 (scoreCol V c) (flushed_eq V c) cover) (ix2 r 0)

end Cert.KernelIdeal.Val1

end
-- ==== Proof.Ref.lean ====
/-
  The reference program at the ideal instance, against the specification: its score vector (the row sums of the
  contribution matrix it builds with a transposed product and the complement of the identity matrix) is the
  specification's score of the normalised arrays, and the rest of the program is the same tail of host operations the
  kernel's program runs, applied to that vector (the two differ only in how the final norm is routed through
  one-element shapes).
-/
import proofs.«127008_j80152679678829_1_alg».proof.Proof.RefRead
import proofs.«127008_j80152679678829_1_alg».proof.Proof.Spec
import proofs.«127008_j80152679678829_1_alg».proof.Proof.KI.TailDef
import proofs.«127008_j80152679678829_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.ReadP

/-- The document array as rows of coordinates. -/
abbrev rowsOf (x1 : (⟨S8192x1024, .f32⟩ : BufTy).Contents (Elt Ideal)) : Fin 8192 → Fin 1024 → EReal :=
  fun r k => (x1 : S8192x1024.Idx → EReal) (ix2 r k)
/-- The query array as coordinates. -/
abbrev rowOf (x0 : (⟨S1024, .f32⟩ : BufTy).Contents (Elt Ideal)) : Fin 1024 → EReal :=
  fun k => (x0 : S1024.Idx → EReal) (ix1 k)

/-- A normalised document row, entry by entry: the entry over the larger of the row's Euclidean norm and the literal.
    The row sum starts from the zero word, which denotes 0. -/
theorem dn_at (x1 : (⟨S8192x1024, .f32⟩ : BufTy).Contents (Elt Ideal)) (r : Fin 8192) (k : Fin 1024) :
    (val_main_v14 (F := Ideal) x1 : S8192x1024.Idx → EReal) (ix2 r k) = Cert.Spec.dn (rowsOf x1) r k := by
  have e1 : ∀ k' : Fin 1024, idx_main_call1_v1 (idx_main_call1_v2 (idx_main_v13 (ix2 r k))) k' = ix2 r k' := fun k' =>
    funext fun a => Fin.ext (by match a with | ⟨0, _⟩ => rfl | ⟨1, _⟩ => rfl)
  rw [val_main_v14_apply, val_main_v13_apply, val_main_v12_apply, val_main_v10_apply, val_main_call1_v2_apply,
    val_main_call1_v1_apply, val_main_v11_apply, val_main_cst_1_apply, val_main_call1_cst_apply]
  simp only [val_main_call1_v0_apply, e1, Ideal.ofBits_def, Ideal.mulf_def, Ideal.hostDivf_def, Ideal.maximumf_def,
    Ideal.hostUnary_sqrt_def, Ideal.ofBits_zero_f32, zero_add]
  rfl

/-- The half-sum of the query row and a document row, entry by entry. -/
theorem comb_at (x0 : (⟨S1024, .f32⟩ : BufTy).Contents (Elt Ideal)) (x1 : (⟨S8192x1024, .f32⟩ : BufTy).Contents (Elt Ideal))
    (r : Fin 8192) (k : Fin 1024) :
    (val_main_v4 (F := Ideal) x0 x1 : S8192x1024.Idx → EReal) (ix2 r k) = Cert.Spec.comb (rowOf x0) (rowsOf x1) r k := by
  have e0 : idx_main_v0 (idx_main_v1 (ix2 r k)) = ix1 k :=
    funext fun a => Fin.ext (by match a with | ⟨0, _⟩ => rfl)
  rw [val_main_v4_apply, val_main_v2_apply, val_main_v1_apply, val_main_v0_apply, val_main_v3_apply, val_main_cst_apply, e0]
  simp only [Ideal.ofBits_def, Ideal.mulf_def, Ideal.addf_def]
  rfl

/-- A normalised half-sum row, entry by entry. -/
theorem cn_at (x0 : (⟨S1024, .f32⟩ : BufTy).Contents (Elt Ideal)) (x1 : (⟨S8192x1024, .f32⟩ : BufTy).Contents (Elt Ideal))
    (r : Fin 8192) (k : Fin 1024) :
    (val_main_v9 (F := Ideal) x0 x1 : S8192x1024.Idx → EReal) (ix2 r k) = Cert.Spec.cn (rowOf x0) (rowsOf x1) r k := by
  have e1 : ∀ k' : Fin 1024, idx_main_call0_v1 (idx_main_call0_v2 (idx_main_v8 (ix2 r k))) k' = ix2 r k' := fun k' =>
    funext fun a => Fin.ext (by match a with | ⟨0, _⟩ => rfl | ⟨1, _⟩ => rfl)
  rw [val_main_v9_apply, val_main_v8_apply, val_main_v7_apply, val_main_v5_apply, val_main_call0_v2_apply,
    val_main_call0_v1_apply, val_main_v6_apply, val_main_cst_0_apply, val_main_call0_cst_apply, comb_at]
  simp only [val_main_call0_v0_apply, e1, comb_at, Ideal.ofBits_def, Ideal.mulf_def, Ideal.hostDivf_def, Ideal.maximumf_def,
    Ideal.hostUnary_sqrt_def, Ideal.ofBits_zero_f32, zero_add]
  rfl

/-- The first product against the transposed normalised documents: entry (r, c) is the inner product of row r of the
    normalised half-sums with row c of the normalised documents. -/
theorem dotcd_at (x0 : (⟨S1024, .f32⟩ : BufTy).Contents (Elt Ideal)) (x1 : (⟨S8192x1024, .f32⟩ : BufTy).Contents (Elt Ideal))
    (r c : Fin 8192) :
    (val_main_v16 (F := Ideal) x0 x1 : S8192x8192.Idx → EReal) (ix2 r c)
      = Cert.Spec.dotRows (Cert.Spec.cn (rowOf x0) (rowsOf x1)) (Cert.Spec.dn (rowsOf x1)) r c := by
  have el : ∀ k : Fin 1024, lidx_main_v16 (ix2 r c) k = ix2 r k := fun k =>
    funext fun a => Fin.ext (by match a with | ⟨0, _⟩ => rfl | ⟨1, _⟩ => rfl)
  have er : ∀ k : Fin 1024, idx_main_v15 (ridx_main_v16 (ix2 r c) k) = ix2 c k := fun k =>
    funext fun a => Fin.ext (by match a with | ⟨0, _⟩ => rfl | ⟨1, _⟩ => rfl)
  rw [val_main_v16_apply]
  simp only [val_main_v15_apply, el, er, cn_at, dn_at]
  rfl

/-- The second product: entry (r, c) is the inner product of rows r and c of the normalised documents. -/
theorem dotdd_at (x1 : (⟨S8192x1024, .f32⟩ : BufTy).Contents (Elt Ideal)) (r c : Fin 8192) :
    (val_main_v18 (F := Ideal) x1 : S8192x8192.Idx → EReal) (ix2 r c)
      = Cert.Spec.dotRows (Cert.Spec.dn (rowsOf x1)) (Cert.Spec.dn (rowsOf x1)) r c := by
  have el : ∀ k : Fin 1024, lidx_main_v18 (ix2 r c) k = ix2 r k := fun k =>
    funext fun a => Fin.ext (by match a with | ⟨0, _⟩ => rfl | ⟨1, _⟩ => rfl)
  have er : ∀ k : Fin 1024, idx_main_v17 (ridx_main_v18 (ix2 r c) k) = ix2 c k := fun k =>
    funext fun a => Fin.ext (by match a with | ⟨0, _⟩ => rfl | ⟨1, _⟩ => rfl)
  rw [val_main_v18_apply]
  simp only [val_main_v17_apply, el, er, dn_at]
  rfl

/-- Two row numbers below 8192 are equal as 32-bit words exactly when they are equal. -/
theorem word_eq_iff (r c : Fin 8192) : (BitVec.ofNat 32 r.val + 0#32 == BitVec.ofNat 32 c.val) = decide (r = c) := by
  have hr := r.isLt
  have hc := c.isLt
  rw [BitVec.add_zero]
  by_cases h : r = c
  · subst h; simp
  · have hne : ¬ BitVec.ofNat 32 r.val = BitVec.ofNat 32 c.val := by
      intro he
      have := congrArg BitVec.toNat he
      simp only [BitVec.toNat_ofNat] at this
      rw [Nat.mod_eq_of_lt (by omega), Nat.mod_eq_of_lt (by omega)] at this
      exact h (Fin.ext this)
    simp [h, hne]

/-- One minus the indicator of the diagonal (row number equals column number): 1 - 1 = 0 on it, 1 - 0 = 1 off it. -/
theorem offdiag_at (r c : Fin 8192) :
    (val_main_v29 (F := Ideal) : S8192x8192.Idx → EReal) (ix2 r c) = if r = c then 0 else 1 := by
  rw [val_main_v29_apply, val_main_v28_apply, val_main_cst_3_apply, val_main_v27_apply, val_main_v26_apply, val_main_v25_apply,
    val_main_v22_apply, val_main_v24_apply, val_main_c_apply, val_main_v23_apply]
  simp only [Ideal.ofBits_def, Ideal.subf_def, Cert.Spec.ofBits_one]
  show (1 : EReal) - FloatOps.uitofp (F := Ideal) .f32 (BitVec.ofBool (BitVec.ofNat 32 r.val + 0#32 == BitVec.ofNat 32 c.val)) = _
  rw [word_eq_iff]
  by_cases h : r = c
  · rw [if_pos h, decide_eq_true h]
    show (1 : EReal) - (((1 : ℕ) : ℝ) : EReal) = 0
    rw [Nat.cast_one, EReal.coe_one]
    show ((1 : ℝ) : EReal) - ((1 : ℝ) : EReal) = 0
    rw [← EReal.coe_sub, sub_self, EReal.coe_zero]
  · rw [if_neg h, decide_eq_false h]
    show (1 : EReal) - (((0 : ℕ) : ℝ) : EReal) = 1
    rw [Nat.cast_zero, EReal.coe_zero, sub_zero]

/-- One entry of the contribution matrix: the product of the two factors, times 0 on the diagonal (x * 0 = 0 for
    every extended real) and times 1 off it. -/
theorem contrib_at (x0 : (⟨S1024, .f32⟩ : BufTy).Contents (Elt Ideal)) (x1 : (⟨S8192x1024, .f32⟩ : BufTy).Contents (Elt Ideal))
    (r c : Fin 8192) :
    (val_main_v30 (F := Ideal) x0 x1 : S8192x8192.Idx → EReal) (ix2 r c)
      = Cert.Spec.contrib (Cert.Spec.cn (rowOf x0) (rowsOf x1)) (Cert.Spec.dn (rowsOf x1)) r c := by
  rw [val_main_v30_apply, val_main_v21_apply, val_main_v20_apply, val_main_v19_apply, val_main_cst_2_apply,
    dotcd_at, dotdd_at, offdiag_at]
  simp only [Ideal.ofBits_def, Ideal.mulf_def, Ideal.subf_def, Cert.Spec.ofBits_one]
  unfold Cert.Spec.contrib
  by_cases h : r = c
  · rw [if_pos h, if_pos h, mul_zero]
  · rw [if_neg h, if_neg h, mul_one]

/-- The reference's score vector, entry by entry. -/
theorem ref_scores (x0 : (⟨S1024, .f32⟩ : BufTy).Contents (Elt Ideal)) (x1 : (⟨S8192x1024, .f32⟩ : BufTy).Contents (Elt Ideal)) (r : Fin 8192) :
    (val_main_v31 (F := Ideal) x0 x1 : S8192.Idx → EReal) (ix1 r)
      = Cert.Spec.scores (Cert.Spec.cn (fun k => (x0 : S1024.Idx → EReal) (ix1 k)) (fun r k => (x1 : S8192x1024.Idx → EReal) (ix2 r k)))
          (Cert.Spec.dn (fun r k => (x1 : S8192x1024.Idx → EReal) (ix2 r k))) r := by
  have e : ∀ c : Fin 8192, idx_main_v31 (ix1 r) c = ix2 r c := fun c =>
    funext fun a => Fin.ext (by match a with | ⟨0, _⟩ => rfl | ⟨1, _⟩ => rfl)
  rw [val_main_v31_apply, val_main_cst_4_apply]
  simp only [e, contrib_at, Ideal.ofBits_def, Ideal.ofBits_zero_f32, zero_add]
  rfl

section SharedTail

variable {F : FTy → Type} [FloatOps F]

/-- Up to the weighted sum of the document rows the reference applies, operation by operation, the shared chain
    (mask, softmax weights, weighted sum) to its score vector. -/
theorem wavg_eq (x0 : (⟨S1024, .f32⟩ : BufTy).Contents (Elt F)) (x1 : (⟨S8192x1024, .f32⟩ : BufTy).Contents (Elt F))
    (x2 : (⟨S8192, .i1⟩ : BufTy).Contents (Elt F)) :
    val_main_v46 (F := F) x0 x1 x2
      = Cert.KernelIdeal.Tail.wavg (Cert.KernelIdeal.Tail.masked (val_main_v31 (F := F) x0 x1) x2) x1 := by
  unfold val_main_v46 val_main_cst_9 val_main_v45 val_main_v44 val_main_v43 val_main_v42 val_main_v41 val_main_v40 val_main_v39
    val_main_cst_8 val_main_v38 val_main_v37 val_main_v36 val_main_v35 val_main_v34 val_main_cst_7 val_main_v33 val_main_cst_6
    val_main_v32 val_main_call2_v0 val_main_cst_5
  generalize val_main_v31 (F := F) x0 x1 = s
  unfold Cert.KernelIdeal.Tail.wavg Cert.KernelIdeal.Tail.weights Cert.KernelIdeal.Tail.expd Cert.KernelIdeal.Tail.smax
    Cert.KernelIdeal.Tail.masked
  rfl

/-- A scalar sent to a one-element array, square-rooted and bounded below there, and then spread over 1024 entries,
    is the scalar square-rooted and bounded below and then spread: every entry is the same one number. -/
theorem spread_eq (R C : (⟨S_, .f32⟩ : BufTy).Contents (Elt F)) :
    broadcastInDim S1024 ![0] bcast_S1_S1024_0
        (maximumf (Host.sqrt (broadcastInDim S1 ![] bcast_S_S1 R)) (broadcastInDim S1 ![] bcast_S_S1 C))
      = broadcastInDim S1024 ![] bcast_S_S1024 (maximumf (Host.sqrt R) C) := by
  funext i
  have h1 : ∀ a : Fin S1.rank, ((ix1 (0 : Fin 1) : S1.Idx) a).val = if S1.size a = 1 then 0 else (i ((![0] : Fin 1 → Fin S1024.rank) a)).val :=
    fun a => match a with
      | ⟨0, _⟩ => by show 0 = if (1 : Nat) = 1 then 0 else (i 0).val; rw [if_pos rfl]
  rw [broadcastInDim_apply _ bcast_S1_S1024_0 _ i (ix1 (0 : Fin 1)) h1,
    broadcastInDim_apply _ bcast_S_S1024 _ i ix0 (fun a => a.elim0)]
  show FloatOps.maximumf (FloatOps.hostUnary .sqrt (broadcastInDim S1 ![] bcast_S_S1 R (ix1 (0 : Fin 1))))
      (broadcastInDim S1 ![] bcast_S_S1 C (ix1 (0 : Fin 1))) = FloatOps.maximumf (FloatOps.hostUnary .sqrt (R ix0)) (C ix0)
  rw [broadcastInDim_apply _ bcast_S_S1 R (ix1 (0 : Fin 1)) ix0 (fun a => a.elim0),
    broadcastInDim_apply _ bcast_S_S1 C (ix1 (0 : Fin 1)) ix0 (fun a => a.elim0)]

/-- The reference's last norm, routed through a one-element array, is the shared norm. -/
theorem norm_eq (w : (⟨S1024, .f32⟩ : BufTy).Contents (Elt F)) :
    Host.divf w (broadcastInDim S1024 ![0] bcast_S1_S1024_0
        (maximumf (Host.sqrt (broadcastInDim S1 ![] bcast_S_S1
            (Host.reduceAdd (mulf w w) (constant S_ .f32 0x00000000#32) reducesTo_S1024_S_d0 h_S_)))
          (broadcastInDim S1 ![] bcast_S_S1 (constant S_ .f32 0x2B8CBCCC#32))))
      = Cert.KernelIdeal.Tail.normed w := by
  rw [spread_eq]
  rfl

/-- The reference's result is the shared tail of its score vector, at every float instance. -/
theorem tail_eq (x0 : (⟨S1024, .f32⟩ : BufTy).Contents (Elt F)) (x1 : (⟨S8192x1024, .f32⟩ : BufTy).Contents (Elt F))
    (x2 : (⟨S8192, .i1⟩ : BufTy).Contents (Elt F)) :
    val_main_v53 (F := F) x0 x1 x2 = Cert.KernelIdeal.Tail.tailV (F := F) (val_main_v31 (F := F) x0 x1) x0 x1 x2 := by
  unfold val_main_v53 val_main_v52 val_main_c_11 val_main_v51 val_main_v50 val_main_v49 val_main_v48 val_main_cst_10
    val_main_v47 val_main_call3_v2 val_main_call3_v1 val_main_call3_cst val_main_call3_v0
  unfold Cert.KernelIdeal.Tail.tailV Cert.KernelIdeal.Tail.pick
  rw [wavg_eq]
  generalize Cert.KernelIdeal.Tail.wavg (Cert.KernelIdeal.Tail.masked (val_main_v31 (F := F) x0 x1) x2) x1 = w
  rw [norm_eq w]

end SharedTail

/-- The reference's result is the shared tail of its score vector. -/
theorem ref_tail (x0 : (⟨S1024, .f32⟩ : BufTy).Contents (Elt Ideal)) (x1 : (⟨S8192x1024, .f32⟩ : BufTy).Contents (Elt Ideal))
    (x2 : (⟨S8192, .i1⟩ : BufTy).Contents (Elt Ideal)) :
    val_main_v53 (F := Ideal) x0 x1 x2 = Cert.KernelIdeal.Tail.tailV (F := Ideal) (val_main_v31 (F := Ideal) x0 x1) x0 x1 x2 :=
  tail_eq x0 x1 x2

end Cert.ReferenceIdeal.RefValue

end
-- ==== Proof.Bridge.lean ====
/-
  The two programs' results are one function of the arguments. The kernel's program ends with the shared tail of host
  operations applied to the score column its second region leaves; that column, read as a vector, is the specification's
  score of the arrays the first region leaves, which are the specification's normalised half-sums and normalised
  documents of the arguments. The reference's score vector is the same specification of the same arguments, and its
  result the same tail of it.
-/
import proofs.«127008_j80152679678829_1_alg».proof.Proof.KI.Tail
import proofs.«127008_j80152679678829_1_alg».proof.Proof.KI.Value0
import proofs.«127008_j80152679678829_1_alg».proof.Proof.KI.Value1
import proofs.«127008_j80152679678829_1_alg».proof.Proof.Ref

set_option maxRecDepth 16384

noncomputable section

open scoped BigOperators

namespace Cert.Proof.Bridge

open Idealize.ShloMosaic Idealize.ShloMosaic.TcCoe Idealize.ShloMosaic.ValueIdx
open Idealize.SL Idealize.SL.Sem
open Cert.KernelIdeal Cert.KernelIdeal.Gen Cert.KernelIdeal.Run Cert.KernelIdeal.R0 Cert.KernelIdeal.R1 Cert.KernelIdeal.Tail

/-- An `[a, 1]` column read as an `[a]` vector holds, at `i`, the column's entry of row `i`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ) (c : Dev nD)

/-- The query row, the documents and the mask as launched. -/
abbrev q0 : (⟨S1024, .f32⟩ : BufTy).Contents (Elt Ideal) := m ((c.tc : Thread nD τ).loc main_arg0)
abbrev d1 : (⟨S8192x1024, .f32⟩ : BufTy).Contents (Elt Ideal) := m ((c.tc : Thread nD τ).loc main_arg1)
abbrev k2 : (⟨S8192, .i1⟩ : BufTy).Contents (Elt Ideal) := m ((c.tc : Thread nD τ).loc main_arg2)

/-- The arrays the first region leaves are the specification's of the arguments. -/
theorem cn_entry (r : Fin 8192) (k : Fin 1024) :
    (E2 m c main_v1_0 : S8192x1024.Idx → EReal) (ix2 r k)
      = Cert.Spec.cn (fun k => (q0 m c : S1024.Idx → EReal) (ix1 k)) (fun r k => (d1 m c : S8192x1024.Idx → EReal) (ix2 r k)) r k := by
  rw [E2_v1_0, Cert.KernelIdeal.Val0.cn_final (E1 m) c r k, E1_v0, E1_arg1]
  congr 1
  funext k'
  exact shapeCast_a_1a_apply _ _ (0 : Fin 1) k'

theorem dn_entry (r : Fin 8192) (k : Fin 1024) :
    (E2 m c main_v1_1 : S8192x1024.Idx → EReal) (ix2 r k)
      = Cert.Spec.dn (fun r k => (d1 m c : S8192x1024.Idx → EReal) (ix2 r k)) r k := by
  rw [E2_v1_1, Cert.KernelIdeal.Val0.dn_final (E1 m) c r k, E1_arg1]

/-- The score column the second region leaves, read as a vector, is the reference's score vector. -/
theorem scores_eq :
    shapeCast S8192 (outs m 3 main_v2 c) Cert.KernelIdeal.Facts₀.shapeCasts_S8192x1_S8192
      = Cert.ReferenceIdeal.ReadP.val_main_v31 (F := Ideal) (q0 m c) (d1 m c) := by
  funext i
  obtain ⟨r, rfl⟩ : ∃ r : Fin 8192, i = ix1 r := ⟨i 0, eq_ix1 i⟩
  rw [shapeCast_a1_a_apply, outs_v2, Cert.KernelIdeal.Val1.scores_final (E2 m) c r,
    Cert.ReferenceIdeal.RefValue.ref_scores (q0 m c) (d1 m c) r]
  congr 1
  · funext r' k'; exact cn_entry m c r' k'
  · funext r' k'; exact dn_entry m c r' k'

/-- What the kernel's program leaves in its result buffer is the reference's result term of the same arguments. -/
theorem result_eq :
    Gen.V9 m (outs m) c main_v24 = Cert.ReferenceIdeal.ReadP.val_main_v53 (F := Ideal) (q0 m c) (d1 m c) (k2 m c) := by
  rw [V9_v24, Cert.ReferenceIdeal.RefValue.ref_tail]
  unfold tailK
  rw [scores_eq]

end Cert.Proof.Bridge

end
-- ==== Proof.lean ====
/-
  The certificate. Both printed kernel programs (the word-level one and its idealization, the same text read at two
  instances) run to the end without a fault and leave their arguments unchanged: each is a chain of host operations and
  two pipelined kernel regions, and the run is proved region by region. The reference is a straight line of host
  operations. At the ideal instance the kernel's result and the reference's are the same function of the arguments:
  the normalised half-sums and documents, the row sums of cos_cd * (1 - cos_dd) off the diagonal, whether accumulated
  block by block in a scratch column or summed in one pass against the complement of the identity matrix, and then
  the same masked softmax, weighted sum and normalisation on both sides.
-/
import proofs.«127008_j80152679678829_1_alg».proof.Defs
import proofs.«127008_j80152679678829_1_alg».proof.Proof.Gen.Kernel
import proofs.«127008_j80152679678829_1_alg».proof.Proof.Gen.KernelIdeal
import proofs.«127008_j80152679678829_1_alg».proof.Proof.Gen.ReferenceIdeal
import proofs.«127008_j80152679678829_1_alg».proof.Proof.Gen.Pre_finite_inputs
import proofs.«127008_j80152679678829_1_alg».proof.Proof.K.RunMain
import proofs.«127008_j80152679678829_1_alg».proof.Proof.KI.RunMain
import proofs.«127008_j80152679678829_1_alg».proof.Proof.Bridge

noncomputable section

namespace Cert.Proof

open Idealize.ShloMosaic Idealize.ShloMosaic.TcCoe Idealize.SL.Sem

/-- The word-level program runs and keeps its arguments: its run, the result dropped. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Run.run_main (F := Bits) m ρ)

/-- The idealized program likewise. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Run.run_main (F := Ideal) m ρ)

/-- The reference runs and keeps its arguments: its run, the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.ValueP.run (F := Ideal) m ρ)

/-- From memories that agree on the arguments both idealized programs end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V9 m (Cert.KernelIdeal.Run.outs m) c Cert.KernelIdeal.main_v24,
    Cert.KernelIdeal.Run.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, (hagree c).1, (hagree c).2.1, (hagree c).2.2]
  exact (Cert.Proof.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
